-- ==== Defs.lean ====
def Pre_Kernel [hPre_finite_inputs : Cert.Pre_finite_inputs.Facts] (m : (ℓ : Loc Cert.Kernel.nD Cert.Kernel.τ Cert.Kernel.sig) → Buf (Elt Bits) ℓ) : Prop :=
  ∀ c : Dev Cert.Kernel.nD,
    (Cert.Pre_finite_inputs.fn (F := Bits) (m ((c.tc : Thread Cert.Kernel.nD Cert.Kernel.τ).loc Cert.Kernel.main_arg0)) (m ((c.tc : Thread Cert.Kernel.nD Cert.Kernel.τ).loc Cert.Kernel.main_arg1)) (m ((c.tc : Thread Cert.Kernel.nD Cert.Kernel.τ).loc Cert.Kernel.main_arg2)) (m ((c.tc : Thread Cert.Kernel.nD Cert.Kernel.τ).loc Cert.Kernel.main_arg3)) (m ((c.tc : Thread Cert.Kernel.nD Cert.Kernel.τ).loc Cert.Kernel.main_arg4)) (m ((c.tc : Thread Cert.Kernel.nD Cert.Kernel.τ).loc Cert.Kernel.main_arg5)) (m ((c.tc : Thread Cert.Kernel.nD Cert.Kernel.τ).loc Cert.Kernel.main_arg6)) (m ((c.tc : Thread Cert.Kernel.nD Cert.Kernel.τ).loc Cert.Kernel.main_arg7))) = (fun _ => 1#1)

def Pre_KernelIdeal [hPre_finite_inputs : Cert.Pre_finite_inputs.Facts] (m : (ℓ : Loc Cert.KernelIdeal.nD Cert.KernelIdeal.τ Cert.KernelIdeal.sig) → Buf (Elt Ideal) ℓ) : Prop :=
  ∀ c : Dev Cert.KernelIdeal.nD,
    (Cert.Pre_finite_inputs.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2)) (m ((c.tc : Thread Cert.KernelIdeal.nD Cert.KernelIdeal.τ).loc Cert.KernelIdeal.main_arg3)) (m ((c.tc : Thread Cert.KernelIdeal.nD Cert.KernelIdeal.τ).loc Cert.KernelIdeal.main_arg4)) (m ((c.tc : Thread Cert.KernelIdeal.nD Cert.KernelIdeal.τ).loc Cert.KernelIdeal.main_arg5)) (m ((c.tc : Thread Cert.KernelIdeal.nD Cert.KernelIdeal.τ).loc Cert.KernelIdeal.main_arg6)) (m ((c.tc : Thread Cert.KernelIdeal.nD Cert.KernelIdeal.τ).loc Cert.KernelIdeal.main_arg7))) = (fun _ => 1#1)

def Pre_ReferenceIdeal [hPre_finite_inputs : Cert.Pre_finite_inputs.Facts] (m : (ℓ : Loc Cert.ReferenceIdeal.nD Cert.ReferenceIdeal.τ Cert.ReferenceIdeal.sig) → Buf (Elt Ideal) ℓ) : Prop :=
  ∀ c : Dev Cert.ReferenceIdeal.nD,
    (Cert.Pre_finite_inputs.fn (F := Ideal) (m ((c.tc : Thread Cert.ReferenceIdeal.nD Cert.ReferenceIdeal.τ).loc Cert.ReferenceIdeal.main_arg0)) (m ((c.tc : Thread Cert.ReferenceIdeal.nD Cert.ReferenceIdeal.τ).loc Cert.ReferenceIdeal.main_arg1)) (m ((c.tc : Thread Cert.ReferenceIdeal.nD Cert.ReferenceIdeal.τ).loc Cert.ReferenceIdeal.main_arg2)) (m ((c.tc : Thread Cert.ReferenceIdeal.nD Cert.ReferenceIdeal.τ).loc Cert.ReferenceIdeal.main_arg3)) (m ((c.tc : Thread Cert.ReferenceIdeal.nD Cert.ReferenceIdeal.τ).loc Cert.ReferenceIdeal.main_arg4)) (m ((c.tc : Thread Cert.ReferenceIdeal.nD Cert.ReferenceIdeal.τ).loc Cert.ReferenceIdeal.main_arg5)) (m ((c.tc : Thread Cert.ReferenceIdeal.nD Cert.ReferenceIdeal.τ).loc Cert.ReferenceIdeal.main_arg6)) (m ((c.tc : Thread Cert.ReferenceIdeal.nD Cert.ReferenceIdeal.τ).loc Cert.ReferenceIdeal.main_arg7))) = (fun _ => 1#1)

def frame_Kernel [hKernel : Cert.Kernel.Facts] [hPre_finite_inputs : Cert.Pre_finite_inputs.Facts] : Prop :=
  ∀ (m : (ℓ : Loc Cert.Kernel.nD Cert.Kernel.τ Cert.Kernel.sig) → Buf (Elt Bits) ℓ) (g : Dev Cert.Kernel.nD → PrngReg), Pre_Kernel m →
    θ_run (Cert.Kernel.defs (F := Bits)) (onTc (τ := Cert.Kernel.τ) (Cert.Kernel.main (F := Bits))) ⟨m, fun _ => 0, g⟩ (fun r => ∀ c : Dev Cert.Kernel.nD,
      r.2.mem ((c.tc : Thread Cert.Kernel.nD Cert.Kernel.τ).loc Cert.Kernel.main_arg0) = m ((c.tc : Thread Cert.Kernel.nD Cert.Kernel.τ).loc Cert.Kernel.main_arg0)
      ∧ r.2.mem ((c.tc : Thread Cert.Kernel.nD Cert.Kernel.τ).loc Cert.Kernel.main_arg1) = m ((c.tc : Thread Cert.Kernel.nD Cert.Kernel.τ).loc Cert.Kernel.main_arg1)
      ∧ r.2.mem ((c.tc : Thread Cert.Kernel.nD Cert.Kernel.τ).loc Cert.Kernel.main_arg2) = m ((c.tc : Thread Cert.Kernel.nD Cert.Kernel.τ).loc Cert.Kernel.main_arg2)
      ∧ r.2.mem ((c.tc : Thread Cert.Kernel.nD Cert.Kernel.τ).loc Cert.Kernel.main_arg3) = m ((c.tc : Thread Cert.Kernel.nD Cert.Kernel.τ).loc Cert.Kernel.main_arg3)
      ∧ r.2.mem ((c.tc : Thread Cert.Kernel.nD Cert.Kernel.τ).loc Cert.Kernel.main_arg4) = m ((c.tc : Thread Cert.Kernel.nD Cert.Kernel.τ).loc Cert.Kernel.main_arg4)
      ∧ r.2.mem ((c.tc : Thread Cert.Kernel.nD Cert.Kernel.τ).loc Cert.Kernel.main_arg5) = m ((c.tc : Thread Cert.Kernel.nD Cert.Kernel.τ).loc Cert.Kernel.main_arg5)
      ∧ r.2.mem ((c.tc : Thread Cert.Kernel.nD Cert.Kernel.τ).loc Cert.Kernel.main_arg6) = m ((c.tc : Thread Cert.Kernel.nD Cert.Kernel.τ).loc Cert.Kernel.main_arg6)
      ∧ r.2.mem ((c.tc : Thread Cert.Kernel.nD Cert.Kernel.τ).loc Cert.Kernel.main_arg7) = m ((c.tc : Thread Cert.Kernel.nD Cert.Kernel.τ).loc Cert.Kernel.main_arg7))

def frame_KernelIdeal [hKernelIdeal : Cert.KernelIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal m →
    θ_run (Cert.KernelIdeal.defs (F := Ideal)) (onTc (τ := Cert.KernelIdeal.τ) (Cert.KernelIdeal.main (F := Ideal))) ⟨m, fun _ => 0, g⟩ (fun r => ∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
      ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
      ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
      ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4)
      ∧ r.2.mem ((c.tc : Thread Cert.KernelIdeal.nD Cert.KernelIdeal.τ).loc Cert.KernelIdeal.main_arg5) = m ((c.tc : Thread Cert.KernelIdeal.nD Cert.KernelIdeal.τ).loc Cert.KernelIdeal.main_arg5)
      ∧ r.2.mem ((c.tc : Thread Cert.KernelIdeal.nD Cert.KernelIdeal.τ).loc Cert.KernelIdeal.main_arg6) = m ((c.tc : Thread Cert.KernelIdeal.nD Cert.KernelIdeal.τ).loc Cert.KernelIdeal.main_arg6)
      ∧ r.2.mem ((c.tc : Thread Cert.KernelIdeal.nD Cert.KernelIdeal.τ).loc Cert.KernelIdeal.main_arg7) = m ((c.tc : Thread Cert.KernelIdeal.nD Cert.KernelIdeal.τ).loc Cert.KernelIdeal.main_arg7))

def frame_ReferenceIdeal [hReferenceIdeal : Cert.ReferenceIdeal.Facts] [hPre_finite_inputs : Cert.Pre_finite_inputs.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal m →
    θ_run (Cert.ReferenceIdeal.defs (F := Ideal)) (onTc (τ := Cert.ReferenceIdeal.τ) (Cert.ReferenceIdeal.main (F := Ideal))) ⟨m, fun _ => 0, g⟩ (fun r => ∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1)
      ∧ r.2.mem ((c.tc : Thread Cert.ReferenceIdeal.nD Cert.ReferenceIdeal.τ).loc Cert.ReferenceIdeal.main_arg2) = m ((c.tc : Thread Cert.ReferenceIdeal.nD Cert.ReferenceIdeal.τ).loc Cert.ReferenceIdeal.main_arg2)
      ∧ r.2.mem ((c.tc : Thread Cert.ReferenceIdeal.nD Cert.ReferenceIdeal.τ).loc Cert.ReferenceIdeal.main_arg3) = m ((c.tc : Thread Cert.ReferenceIdeal.nD Cert.ReferenceIdeal.τ).loc Cert.ReferenceIdeal.main_arg3)
      ∧ r.2.mem ((c.tc : Thread Cert.ReferenceIdeal.nD Cert.ReferenceIdeal.τ).loc Cert.ReferenceIdeal.main_arg4) = m ((c.tc : Thread Cert.ReferenceIdeal.nD Cert.ReferenceIdeal.τ).loc Cert.ReferenceIdeal.main_arg4)
      ∧ r.2.mem ((c.tc : Thread Cert.ReferenceIdeal.nD Cert.ReferenceIdeal.τ).loc Cert.ReferenceIdeal.main_arg5) = m ((c.tc : Thread Cert.ReferenceIdeal.nD Cert.ReferenceIdeal.τ).loc Cert.ReferenceIdeal.main_arg5)
      ∧ r.2.mem ((c.tc : Thread Cert.ReferenceIdeal.nD Cert.ReferenceIdeal.τ).loc Cert.ReferenceIdeal.main_arg6) = m ((c.tc : Thread Cert.ReferenceIdeal.nD Cert.ReferenceIdeal.τ).loc Cert.ReferenceIdeal.main_arg6)
      ∧ r.2.mem ((c.tc : Thread Cert.ReferenceIdeal.nD Cert.ReferenceIdeal.τ).loc Cert.ReferenceIdeal.main_arg7) = m ((c.tc : Thread Cert.ReferenceIdeal.nD Cert.ReferenceIdeal.τ).loc Cert.ReferenceIdeal.main_arg7))

def preserves_Kernel_KernelIdeal : Prop :=
  True

def algebraic_KernelIdeal_ReferenceIdeal [hKernelIdeal : Cert.KernelIdeal.Facts] [hReferenceIdeal : Cert.ReferenceIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg)
    (m' : (ℓ : Loc Cert.ReferenceIdeal.nD Cert.ReferenceIdeal.τ Cert.ReferenceIdeal.sig) → Buf (Elt Ideal) ℓ) (g' : Dev Cert.ReferenceIdeal.nD → PrngReg), Pre_KernelIdeal m →
    (∀ c : Dev Cert.KernelIdeal.nD,
      m' ((c.tc : Thread Cert.ReferenceIdeal.nD Cert.ReferenceIdeal.τ).loc Cert.ReferenceIdeal.main_arg0) = m ((c.tc : Thread Cert.KernelIdeal.nD Cert.KernelIdeal.τ).loc Cert.KernelIdeal.main_arg0)
      ∧ m' ((c.tc : Thread Cert.ReferenceIdeal.nD Cert.ReferenceIdeal.τ).loc Cert.ReferenceIdeal.main_arg1) = m ((c.tc : Thread Cert.KernelIdeal.nD Cert.KernelIdeal.τ).loc Cert.KernelIdeal.main_arg1)
      ∧ m' ((c.tc : Thread Cert.ReferenceIdeal.nD Cert.ReferenceIdeal.τ).loc Cert.ReferenceIdeal.main_arg2) = m ((c.tc : Thread Cert.KernelIdeal.nD Cert.KernelIdeal.τ).loc Cert.KernelIdeal.main_arg2)
      ∧ m' ((c.tc : Thread Cert.ReferenceIdeal.nD Cert.ReferenceIdeal.τ).loc Cert.ReferenceIdeal.main_arg3) = m ((c.tc : Thread Cert.KernelIdeal.nD Cert.KernelIdeal.τ).loc Cert.KernelIdeal.main_arg3)
      ∧ m' ((c.tc : Thread Cert.ReferenceIdeal.nD Cert.ReferenceIdeal.τ).loc Cert.ReferenceIdeal.main_arg4) = m ((c.tc : Thread Cert.KernelIdeal.nD Cert.KernelIdeal.τ).loc Cert.KernelIdeal.main_arg4)
      ∧ m' ((c.tc : Thread Cert.ReferenceIdeal.nD Cert.ReferenceIdeal.τ).loc Cert.ReferenceIdeal.main_arg5) = m ((c.tc : Thread Cert.KernelIdeal.nD Cert.KernelIdeal.τ).loc Cert.KernelIdeal.main_arg5)
      ∧ m' ((c.tc : Thread Cert.ReferenceIdeal.nD Cert.ReferenceIdeal.τ).loc Cert.ReferenceIdeal.main_arg6) = m ((c.tc : Thread Cert.KernelIdeal.nD Cert.KernelIdeal.τ).loc Cert.KernelIdeal.main_arg6)
      ∧ m' ((c.tc : Thread Cert.ReferenceIdeal.nD Cert.ReferenceIdeal.τ).loc Cert.ReferenceIdeal.main_arg7) = m ((c.tc : Thread Cert.KernelIdeal.nD Cert.KernelIdeal.τ).loc Cert.KernelIdeal.main_arg7)) →
    ∃ (v0 : (c : Dev Cert.KernelIdeal.nD) → Buf (Elt Ideal) ((c.tc : Thread Cert.KernelIdeal.nD Cert.KernelIdeal.τ).loc Cert.KernelIdeal.main_v43)),
      θ_run (Cert.KernelIdeal.defs (F := Ideal)) (onTc (τ := Cert.KernelIdeal.τ) (Cert.KernelIdeal.main (F := Ideal))) ⟨m, fun _ => 0, g⟩ (fun r => ∀ c : Dev Cert.KernelIdeal.nD,
          r.2.mem ((c.tc : Thread Cert.KernelIdeal.nD Cert.KernelIdeal.τ).loc Cert.KernelIdeal.main_v43) = v0 c
          ∧ r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
          ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
          ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
          ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
          ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4)
          ∧ r.2.mem ((c.tc : Thread Cert.KernelIdeal.nD Cert.KernelIdeal.τ).loc Cert.KernelIdeal.main_arg5) = m ((c.tc : Thread Cert.KernelIdeal.nD Cert.KernelIdeal.τ).loc Cert.KernelIdeal.main_arg5)
          ∧ r.2.mem ((c.tc : Thread Cert.KernelIdeal.nD Cert.KernelIdeal.τ).loc Cert.KernelIdeal.main_arg6) = m ((c.tc : Thread Cert.KernelIdeal.nD Cert.KernelIdeal.τ).loc Cert.KernelIdeal.main_arg6)
          ∧ r.2.mem ((c.tc : Thread Cert.KernelIdeal.nD Cert.KernelIdeal.τ).loc Cert.KernelIdeal.main_arg7) = m ((c.tc : Thread Cert.KernelIdeal.nD Cert.KernelIdeal.τ).loc Cert.KernelIdeal.main_arg7))
      ∧ θ_run (Cert.ReferenceIdeal.defs (F := Ideal)) (onTc (τ := Cert.ReferenceIdeal.τ) (Cert.ReferenceIdeal.main (F := Ideal))) ⟨m', fun _ => 0, g'⟩ (fun r => ∀ c : Dev Cert.ReferenceIdeal.nD,
          r.2.mem ((c.tc : Thread Cert.ReferenceIdeal.nD Cert.ReferenceIdeal.τ).loc Cert.ReferenceIdeal.main_v58) = v0 c
          ∧ r.2.mem ((c.tc : Thread Cert.ReferenceIdeal.nD Cert.ReferenceIdeal.τ).loc Cert.ReferenceIdeal.main_arg0) = m' ((c.tc : Thread Cert.ReferenceIdeal.nD Cert.ReferenceIdeal.τ).loc Cert.ReferenceIdeal.main_arg0)
          ∧ r.2.mem ((c.tc : Thread Cert.ReferenceIdeal.nD Cert.ReferenceIdeal.τ).loc Cert.ReferenceIdeal.main_arg1) = m' ((c.tc : Thread Cert.ReferenceIdeal.nD Cert.ReferenceIdeal.τ).loc Cert.ReferenceIdeal.main_arg1)
          ∧ r.2.mem ((c.tc : Thread Cert.ReferenceIdeal.nD Cert.ReferenceIdeal.τ).loc Cert.ReferenceIdeal.main_arg2) = m' ((c.tc : Thread Cert.ReferenceIdeal.nD Cert.ReferenceIdeal.τ).loc Cert.ReferenceIdeal.main_arg2)
          ∧ r.2.mem ((c.tc : Thread Cert.ReferenceIdeal.nD Cert.ReferenceIdeal.τ).loc Cert.ReferenceIdeal.main_arg3) = m' ((c.tc : Thread Cert.ReferenceIdeal.nD Cert.ReferenceIdeal.τ).loc Cert.ReferenceIdeal.main_arg3)
          ∧ r.2.mem ((c.tc : Thread Cert.ReferenceIdeal.nD Cert.ReferenceIdeal.τ).loc Cert.ReferenceIdeal.main_arg4) = m' ((c.tc : Thread Cert.ReferenceIdeal.nD Cert.ReferenceIdeal.τ).loc Cert.ReferenceIdeal.main_arg4)
          ∧ r.2.mem ((c.tc : Thread Cert.ReferenceIdeal.nD Cert.ReferenceIdeal.τ).loc Cert.ReferenceIdeal.main_arg5) = m' ((c.tc : Thread Cert.ReferenceIdeal.nD Cert.ReferenceIdeal.τ).loc Cert.ReferenceIdeal.main_arg5)
          ∧ r.2.mem ((c.tc : Thread Cert.ReferenceIdeal.nD Cert.ReferenceIdeal.τ).loc Cert.ReferenceIdeal.main_arg6) = m' ((c.tc : Thread Cert.ReferenceIdeal.nD Cert.ReferenceIdeal.τ).loc Cert.ReferenceIdeal.main_arg6)
          ∧ r.2.mem ((c.tc : Thread Cert.ReferenceIdeal.nD Cert.ReferenceIdeal.τ).loc Cert.ReferenceIdeal.main_arg7) = m' ((c.tc : Thread Cert.ReferenceIdeal.nD Cert.ReferenceIdeal.τ).loc Cert.ReferenceIdeal.main_arg7))

def Claim : Prop :=
  ∃ (hKernel : Cert.Kernel.Facts) (hKernelIdeal : Cert.KernelIdeal.Facts) (hReferenceIdeal : Cert.ReferenceIdeal.Facts) (hPre_finite_inputs : Cert.Pre_finite_inputs.Facts),
    frame_Kernel (hKernel := hKernel) (hPre_finite_inputs := hPre_finite_inputs)
    ∧ frame_KernelIdeal (hKernelIdeal := hKernelIdeal) (hPre_finite_inputs := hPre_finite_inputs)
    ∧ frame_ReferenceIdeal (hReferenceIdeal := hReferenceIdeal) (hPre_finite_inputs := hPre_finite_inputs)
    ∧ preserves_Kernel_KernelIdeal
    ∧ algebraic_KernelIdeal_ReferenceIdeal (hKernelIdeal := hKernelIdeal) (hReferenceIdeal := hReferenceIdeal) (hPre_finite_inputs := hPre_finite_inputs)
-- ==== Pre_finite_inputs.lean ====
abbrev S100000x128 : Shape := ⟨2, ![100000, 128]⟩
abbrev S2x1600000 : Shape := ⟨2, ![2, 1600000]⟩
abbrev S128x128 : Shape := ⟨2, ![128, 128]⟩
abbrev S128 : Shape := ⟨1, ![128]⟩
abbrev S_ : Shape := ⟨0, ![]⟩

class Facts : Prop where
  bcast_S_S100000x128 : S_.BroadcastsInDim S100000x128 (![] : Fin 0 → Fin S100000x128.rank)
  reducesTo_S100000x128_S_d0_1 : S100000x128.ReducesTo [0, 1] S_
  h_S_ : 0 < S_.numel
  bcast_S_S128x128 : S_.BroadcastsInDim S128x128 (![] : Fin 0 → Fin S128x128.rank)
  reducesTo_S128x128_S_d0_1 : S128x128.ReducesTo [0, 1] S_
  bcast_S_S128 : S_.BroadcastsInDim S128 (![] : Fin 0 → Fin S128.rank)
  reducesTo_S128_S_d0 : S128.ReducesTo [0] S_

variable [Facts]

def fn_part1 {F : FTy → Type} [FloatOps F] (main_arg5 : FVec F S128x128 .f32) (main_arg6 : FVec F S128 .f32) (main_arg7 : FVec F S128x128 .f32) (main_v13 : IVec S_ 1) (main_v16 : IVec S128x128 1) : IVec S_ 1 :=
  let main_c_5 : IVec S_ 1 := constantI S_ 1 1#1
  let main_v17 : IVec S_ 1 := (fun x v => Host.reduce IntOp.andi x v reducesTo_S128x128_S_d0_1 h_S_) main_v16 main_c_5
  let main_v18 : IVec S_ 1 := andi main_v13 main_v17
  let main_v19 : FVec F S128x128 .f32 := Host.absf main_arg5
  let main_cst_6 : FVec F S_ .f32 := constant S_ .f32 0x7F800000#32
  let main_v20 : FVec F S128x128 .f32 := broadcastInDim S128x128 ![] bcast_S_S128x128 main_cst_6
  let main_v21 : IVec S128x128 1 := cmpf .olt main_v19 main_v20
  let main_c_7 : IVec S_ 1 := constantI S_ 1 1#1
  let main_v22 : IVec S_ 1 := (fun x v => Host.reduce IntOp.andi x v reducesTo_S128x128_S_d0_1 h_S_) main_v21 main_c_7
  let main_v23 : IVec S_ 1 := andi main_v18 main_v22
  let main_v24 : FVec F S128 .f32 := Host.absf main_arg6
  let main_cst_8 : FVec F S_ .f32 := constant S_ .f32 0x7F800000#32
  let main_v25 : FVec F S128 .f32 := broadcastInDim S128 ![] bcast_S_S128 main_cst_8
  let main_v26 : IVec S128 1 := cmpf .olt main_v24 main_v25
  let main_c_9 : IVec S_ 1 := constantI S_ 1 1#1
  let main_v27 : IVec S_ 1 := (fun x v => Host.reduce IntOp.andi x v reducesTo_S128_S_d0 h_S_) main_v26 main_c_9
  let main_v28 : IVec S_ 1 := andi main_v23 main_v27
  let main_v29 : FVec F S128x128 .f32 := Host.absf main_arg7
  let main_cst_10 : FVec F S_ .f32 := constant S_ .f32 0x7F800000#32
  let main_v30 : FVec F S128x128 .f32 := broadcastInDim S128x128 ![] bcast_S_S128x128 main_cst_10
  let main_v31 : IVec S128x128 1 := cmpf .olt main_v29 main_v30
  let main_c_11 : IVec S_ 1 := constantI S_ 1 1#1
  let main_v32 : IVec S_ 1 := (fun x v => Host.reduce IntOp.andi x v reducesTo_S128x128_S_d0_1 h_S_) main_v31 main_c_11
  let main_v33 : IVec S_ 1 := andi main_v28 main_v32
  main_v33

def fn {F : FTy → Type} [FloatOps F] (main_arg0 : FVec F S100000x128 .f32) (main_arg1 : IVec S2x1600000 32) (main_arg2 : FVec F S128x128 .f32) (main_arg3 : FVec F S128 .f32) (main_arg4 : FVec F S128x128 .f32) (main_arg5 : FVec F S128x128 .f32) (main_arg6 : FVec F S128 .f32) (main_arg7 : FVec F S128x128 .f32) : IVec S_ 1 :=
  let main_v0 : FVec F S100000x128 .f32 := Host.absf main_arg0
  let main_cst : FVec F S_ .f32 := constant S_ .f32 0x7F800000#32
  let main_v1 : FVec F S100000x128 .f32 := broadcastInDim S100000x128 ![] bcast_S_S100000x128 main_cst
  let main_v2 : IVec S100000x128 1 := cmpf .olt main_v0 main_v1
  let main_c : IVec S_ 1 := constantI S_ 1 1#1
  let main_v3 : IVec S_ 1 := (fun x v => Host.reduce IntOp.andi x v reducesTo_S100000x128_S_d0_1 h_S_) main_v2 main_c
  let main_v4 : FVec F S128x128 .f32 := Host.absf main_arg2
  let main_cst_0 : FVec F S_ .f32 := constant S_ .f32 0x7F800000#32
  let main_v5 : FVec F S128x128 .f32 := broadcastInDim S128x128 ![] bcast_S_S128x128 main_cst_0
  let main_v6 : IVec S128x128 1 := cmpf .olt main_v4 main_v5
  let main_c_1 : IVec S_ 1 := constantI S_ 1 1#1
  let main_v7 : IVec S_ 1 := (fun x v => Host.reduce IntOp.andi x v reducesTo_S128x128_S_d0_1 h_S_) main_v6 main_c_1
  let main_v8 : IVec S_ 1 := andi main_v3 main_v7
  let main_v9 : FVec F S128 .f32 := Host.absf main_arg3
  let main_cst_2 : FVec F S_ .f32 := constant S_ .f32 0x7F800000#32
  let main_v10 : FVec F S128 .f32 := broadcastInDim S128 ![] bcast_S_S128 main_cst_2
  let main_v11 : IVec S128 1 := cmpf .olt main_v9 main_v10
  let main_c_3 : IVec S_ 1 := constantI S_ 1 1#1
  let main_v12 : IVec S_ 1 := (fun x v => Host.reduce IntOp.andi x v reducesTo_S128_S_d0 h_S_) main_v11 main_c_3
  let main_v13 : IVec S_ 1 := andi main_v8 main_v12
  let main_v14 : FVec F S128x128 .f32 := Host.absf main_arg4
  let main_cst_4 : FVec F S_ .f32 := constant S_ .f32 0x7F800000#32
  let main_v15 : FVec F S128x128 .f32 := broadcastInDim S128x128 ![] bcast_S_S128x128 main_cst_4
  let main_v16 : IVec S128x128 1 := cmpf .olt main_v14 main_v15
  fn_part1 (F := F) main_arg5 main_arg6 main_arg7 main_v13 main_v16
-- ==== Kernel.lean ====
abbrev S100000x128 : Shape := ⟨2, ![100000, 128]⟩
abbrev S2x1600000 : Shape := ⟨2, ![2, 1600000]⟩
abbrev S128x128 : Shape := ⟨2, ![128, 128]⟩
abbrev S128 : Shape := ⟨1, ![128]⟩
abbrev S1x1600000 : Shape := ⟨2, ![1, 1600000]⟩
abbrev S1600000 : Shape := ⟨1, ![1600000]⟩
abbrev S_ : Shape := ⟨0, ![]⟩
abbrev S1600000x1 : Shape := ⟨2, ![1600000, 1]⟩
abbrev S1600000x128 : Shape := ⟨2, ![1600000, 128]⟩
abbrev S100000 : Shape := ⟨1, ![100000]⟩
abbrev S100000x1 : Shape := ⟨2, ![100000, 1]⟩
abbrev S2000x128 : Shape := ⟨2, ![2000, 128]⟩
abbrev S1x128 : Shape := ⟨2, ![1, 128]⟩

abbrev nBuf : Space → Nat
  | .hbm => 64
  | .vmem => 18
  | .smem => 0
  | _ => 0

abbrev bufTy : (tb : Table) → Fin (tcTables nBuf tb) → BufTy
  | .hbm, ⟨0, _⟩ => ⟨S100000x128, .f32⟩
  | .hbm, ⟨1, _⟩ => ⟨S2x1600000, .i32⟩
  | .hbm, ⟨2, _⟩ => ⟨S128x128, .f32⟩
  | .hbm, ⟨3, _⟩ => ⟨S128, .f32⟩
  | .hbm, ⟨4, _⟩ => ⟨S128x128, .f32⟩
  | .hbm, ⟨5, _⟩ => ⟨S128x128, .f32⟩
  | .hbm, ⟨6, _⟩ => ⟨S128, .f32⟩
  | .hbm, ⟨7, _⟩ => ⟨S128x128, .f32⟩
  | .hbm, ⟨8, _⟩ => ⟨S1x1600000, .i32⟩
  | .hbm, ⟨9, _⟩ => ⟨S1600000, .i32⟩
  | .hbm, ⟨10, _⟩ => ⟨S1x1600000, .i32⟩
  | .hbm, ⟨11, _⟩ => ⟨S1600000, .i32⟩
  | .hbm, ⟨12, _⟩ => ⟨S_, .i32⟩
  | .hbm, ⟨13, _⟩ => ⟨S1600000, .i32⟩
  | .hbm, ⟨14, _⟩ => ⟨S1600000, .i1⟩
  | .hbm, ⟨15, _⟩ => ⟨S_, .i32⟩
  | .hbm, ⟨16, _⟩ => ⟨S1600000, .i32⟩
  | .hbm, ⟨17, _⟩ => ⟨S1600000, .i32⟩
  | .hbm, ⟨18, _⟩ => ⟨S1600000, .i32⟩
  | .hbm, ⟨19, _⟩ => ⟨S1600000x1, .i32⟩
  | .hbm, ⟨20, _⟩ => ⟨S1600000x128, .f32⟩
  | .hbm, ⟨21, _⟩ => ⟨S_, .f32⟩
  | .hbm, ⟨22, _⟩ => ⟨S100000x128, .f32⟩
  | .hbm, ⟨23, _⟩ => ⟨S1600000x1, .i32⟩
  | .hbm, ⟨24, _⟩ => ⟨S100000x128, .f32⟩
  | .hbm, ⟨25, _⟩ => ⟨S_, .f32⟩
  | .hbm, ⟨26, _⟩ => ⟨S1600000, .f32⟩
  | .hbm, ⟨27, _⟩ => ⟨S_, .f32⟩
  | .hbm, ⟨28, _⟩ => ⟨S100000, .f32⟩
  | .hbm, ⟨29, _⟩ => ⟨S1600000x1, .i32⟩
  | .hbm, ⟨30, _⟩ => ⟨S100000, .f32⟩
  | .hbm, ⟨31, _⟩ => ⟨S_, .f32⟩
  | .hbm, ⟨32, _⟩ => ⟨S100000, .f32⟩
  | .hbm, ⟨33, _⟩ => ⟨S100000, .f32⟩
  | .hbm, ⟨34, _⟩ => ⟨S100000x1, .f32⟩
  | .hbm, ⟨35, _⟩ => ⟨S100000x128, .f32⟩
  | .hbm, ⟨36, _⟩ => ⟨S100000x128, .f32⟩
  | .hbm, ⟨37, _⟩ => ⟨S100000x128, .f32⟩
  | .hbm, ⟨38, _⟩ => ⟨S_, .i32⟩
  | .hbm, ⟨39, _⟩ => ⟨S1600000, .i32⟩
  | .hbm, ⟨40, _⟩ => ⟨S1600000, .i1⟩
  | .hbm, ⟨41, _⟩ => ⟨S_, .i32⟩
  | .hbm, ⟨42, _⟩ => ⟨S1600000, .i32⟩
  | .hbm, ⟨43, _⟩ => ⟨S1600000, .i32⟩
  | .hbm, ⟨44, _⟩ => ⟨S1600000, .i32⟩
  | .hbm, ⟨45, _⟩ => ⟨S1600000x1, .i32⟩
  | .hbm, ⟨46, _⟩ => ⟨S1600000x128, .f32⟩
  | .hbm, ⟨47, _⟩ => ⟨S_, .f32⟩
  | .hbm, ⟨48, _⟩ => ⟨S100000x128, .f32⟩
  | .hbm, ⟨49, _⟩ => ⟨S1600000x1, .i32⟩
  | .hbm, ⟨50, _⟩ => ⟨S100000x128, .f32⟩
  | .hbm, ⟨51, _⟩ => ⟨S_, .f32⟩
  | .hbm, ⟨52, _⟩ => ⟨S1600000, .f32⟩
  | .hbm, ⟨53, _⟩ => ⟨S_, .f32⟩
  | .hbm, ⟨54, _⟩ => ⟨S100000, .f32⟩
  | .hbm, ⟨55, _⟩ => ⟨S1600000x1, .i32⟩
  | .hbm, ⟨56, _⟩ => ⟨S100000, .f32⟩
  | .hbm, ⟨57, _⟩ => ⟨S_, .f32⟩
  | .hbm, ⟨58, _⟩ => ⟨S100000, .f32⟩
  | .hbm, ⟨59, _⟩ => ⟨S100000, .f32⟩
  | .hbm, ⟨60, _⟩ => ⟨S100000x1, .f32⟩
  | .hbm, ⟨61, _⟩ => ⟨S100000x128, .f32⟩
  | .hbm, ⟨62, _⟩ => ⟨S100000x128, .f32⟩
  | .hbm, ⟨63, _⟩ => ⟨S100000x128, .f32⟩
  | .local _ .vmem, ⟨0, _⟩ => ⟨S2000x128, .f32⟩
  | .local _ .vmem, ⟨1, _⟩ => ⟨S2000x128, .f32⟩
  | .local _ .vmem, ⟨2, _⟩ => ⟨S2000x128, .f32⟩
  | .local _ .vmem, ⟨3, _⟩ => ⟨S2000x128, .f32⟩
  | .local _ .vmem, ⟨4, _⟩ => ⟨S128x128, .f32⟩
  | .local _ .vmem, ⟨5, _⟩ => ⟨S128, .f32⟩
  | .local _ .vmem, ⟨6, _⟩ => ⟨S128x128, .f32⟩
  | .local _ .vmem, ⟨7, _⟩ => ⟨S2000x128, .f32⟩
  | .local _ .vmem, ⟨8, _⟩ => ⟨S2000x128, .f32⟩
  | .local _ .vmem, ⟨9, _⟩ => ⟨S2000x128, .f32⟩
  | .local _ .vmem, ⟨10, _⟩ => ⟨S2000x128, .f32⟩
  | .local _ .vmem, ⟨11, _⟩ => ⟨S2000x128, .f32⟩
  | .local _ .vmem, ⟨12, _⟩ => ⟨S2000x128, .f32⟩
  | .local _ .vmem, ⟨13, _⟩ => ⟨S128x128, .f32⟩
  | .local _ .vmem, ⟨14, _⟩ => ⟨S128, .f32⟩
  | .local _ .vmem, ⟨15, _⟩ => ⟨S128x128, .f32⟩
  | .local _ .vmem, ⟨16, _⟩ => ⟨S2000x128, .f32⟩
  | .local _ .vmem, ⟨17, _⟩ => ⟨S2000x128, .f32⟩
  | _, _ => ⟨S100000x128, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | .vmem, ⟨13, _⟩ => true
  | .vmem, ⟨14, _⟩ => true
  | .vmem, ⟨15, _⟩ => true
  | .vmem, ⟨16, _⟩ => true
  | .vmem, ⟨17, _⟩ => true
  | _, _ => false

abbrev semScoped : Fin 0 → Bool
  | ⟨_, h⟩ => absurd h (Nat.not_lt_zero _)

abbrev dmaSemScoped : Fin 18 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | ⟨13, _⟩ => true
  | ⟨14, _⟩ => true
  | ⟨15, _⟩ => true
  | ⟨16, _⟩ => true
  | ⟨17, _⟩ => true
  | _ => false

abbrev sig : RefSig :=
  ofTc nBuf bufTy 0 18 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_arg7 : Ref sig .tc := ⟨.hbm, 7, rfl⟩
abbrev main_v0 : Ref sig .tc := ⟨.hbm, 8, rfl⟩
abbrev main_v1 : Ref sig .tc := ⟨.hbm, 9, rfl⟩
abbrev main_v2 : Ref sig .tc := ⟨.hbm, 10, rfl⟩
abbrev main_v3 : Ref sig .tc := ⟨.hbm, 11, rfl⟩
abbrev main_c : Ref sig .tc := ⟨.hbm, 12, rfl⟩
abbrev main_v4 : Ref sig .tc := ⟨.hbm, 13, rfl⟩
abbrev main_v5 : Ref sig .tc := ⟨.hbm, 14, rfl⟩
abbrev main_c_0 : Ref sig .tc := ⟨.hbm, 15, rfl⟩
abbrev main_v6 : Ref sig .tc := ⟨.hbm, 16, rfl⟩
abbrev main_v7 : Ref sig .tc := ⟨.hbm, 17, rfl⟩
abbrev main_v8 : Ref sig .tc := ⟨.hbm, 18, rfl⟩
abbrev main_v9 : Ref sig .tc := ⟨.hbm, 19, rfl⟩
abbrev main_v10 : Ref sig .tc := ⟨.hbm, 20, rfl⟩
abbrev main_cst : Ref sig .tc := ⟨.hbm, 21, rfl⟩
abbrev main_v11 : Ref sig .tc := ⟨.hbm, 22, rfl⟩
abbrev main_v12 : Ref sig .tc := ⟨.hbm, 23, rfl⟩
abbrev main_v13 : Ref sig .tc := ⟨.hbm, 24, rfl⟩
abbrev main_cst_1 : Ref sig .tc := ⟨.hbm, 25, rfl⟩
abbrev main_v14 : Ref sig .tc := ⟨.hbm, 26, rfl⟩
abbrev main_cst_2 : Ref sig .tc := ⟨.hbm, 27, rfl⟩
abbrev main_v15 : Ref sig .tc := ⟨.hbm, 28, rfl⟩
abbrev main_v16 : Ref sig .tc := ⟨.hbm, 29, rfl⟩
abbrev main_v17 : Ref sig .tc := ⟨.hbm, 30, rfl⟩
abbrev main_cst_3 : Ref sig .tc := ⟨.hbm, 31, rfl⟩
abbrev main_v18 : Ref sig .tc := ⟨.hbm, 32, rfl⟩
abbrev main_v19 : Ref sig .tc := ⟨.hbm, 33, rfl⟩
abbrev main_v20 : Ref sig .tc := ⟨.hbm, 34, rfl⟩
abbrev main_v21 : Ref sig .tc := ⟨.hbm, 35, rfl⟩
abbrev main_v22 : Ref sig .tc := ⟨.hbm, 36, rfl⟩
abbrev main_v23 : Ref sig .tc := ⟨.hbm, 37, rfl⟩
abbrev main_c_4 : Ref sig .tc := ⟨.hbm, 38, rfl⟩
abbrev main_v24 : Ref sig .tc := ⟨.hbm, 39, rfl⟩
abbrev main_v25 : Ref sig .tc := ⟨.hbm, 40, rfl⟩
abbrev main_c_5 : Ref sig .tc := ⟨.hbm, 41, rfl⟩
abbrev main_v26 : Ref sig .tc := ⟨.hbm, 42, rfl⟩
abbrev main_v27 : Ref sig .tc := ⟨.hbm, 43, rfl⟩
abbrev main_v28 : Ref sig .tc := ⟨.hbm, 44, rfl⟩
abbrev main_v29 : Ref sig .tc := ⟨.hbm, 45, rfl⟩
abbrev main_v30 : Ref sig .tc := ⟨.hbm, 46, rfl⟩
abbrev main_cst_6 : Ref sig .tc := ⟨.hbm, 47, rfl⟩
abbrev main_v31 : Ref sig .tc := ⟨.hbm, 48, rfl⟩
abbrev main_v32 : Ref sig .tc := ⟨.hbm, 49, rfl⟩
abbrev main_v33 : Ref sig .tc := ⟨.hbm, 50, rfl⟩
abbrev main_cst_7 : Ref sig .tc := ⟨.hbm, 51, rfl⟩
abbrev main_v34 : Ref sig .tc := ⟨.hbm, 52, rfl⟩
abbrev main_cst_8 : Ref sig .tc := ⟨.hbm, 53, rfl⟩
abbrev main_v35 : Ref sig .tc := ⟨.hbm, 54, rfl⟩
abbrev main_v36 : Ref sig .tc := ⟨.hbm, 55, rfl⟩
abbrev main_v37 : Ref sig .tc := ⟨.hbm, 56, rfl⟩
abbrev main_cst_9 : Ref sig .tc := ⟨.hbm, 57, rfl⟩
abbrev main_v38 : Ref sig .tc := ⟨.hbm, 58, rfl⟩
abbrev main_v39 : Ref sig .tc := ⟨.hbm, 59, rfl⟩
abbrev main_v40 : Ref sig .tc := ⟨.hbm, 60, rfl⟩
abbrev main_v41 : Ref sig .tc := ⟨.hbm, 61, rfl⟩
abbrev main_v42 : Ref sig .tc := ⟨.hbm, 62, rfl⟩
abbrev main_v43 : Ref sig .tc := ⟨.hbm, 63, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg3_0 : Ref sig .tc := ⟨.vmem, 5, rfl⟩
abbrev cc0_stg4_0 : Ref sig .tc := ⟨.vmem, 6, rfl⟩
abbrev cc0_stg5_0 : Ref sig .tc := ⟨.vmem, 7, rfl⟩
abbrev cc0_stg5_1 : Ref sig .tc := ⟨.vmem, 8, rfl⟩
abbrev cc1_stg0_0 : Ref sig .tc := ⟨.vmem, 9, rfl⟩
abbrev cc1_stg0_1 : Ref sig .tc := ⟨.vmem, 10, rfl⟩
abbrev cc1_stg1_0 : Ref sig .tc := ⟨.vmem, 11, rfl⟩
abbrev cc1_stg1_1 : Ref sig .tc := ⟨.vmem, 12, rfl⟩
abbrev cc1_stg2_0 : Ref sig .tc := ⟨.vmem, 13, rfl⟩
abbrev cc1_stg3_0 : Ref sig .tc := ⟨.vmem, 14, rfl⟩
abbrev cc1_stg4_0 : Ref sig .tc := ⟨.vmem, 15, rfl⟩
abbrev cc1_stg5_0 : Ref sig .tc := ⟨.vmem, 16, rfl⟩
abbrev cc1_stg5_1 : Ref sig .tc := ⟨.vmem, 17, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem3_0 : DmaSem sig := 5
abbrev cc0_sem4_0 : DmaSem sig := 6
abbrev cc0_sem5_0 : DmaSem sig := 7
abbrev cc0_sem5_1 : DmaSem sig := 8
abbrev cc1_sem0_0 : DmaSem sig := 9
abbrev cc1_sem0_1 : DmaSem sig := 10
abbrev cc1_sem1_0 : DmaSem sig := 11
abbrev cc1_sem1_1 : DmaSem sig := 12
abbrev cc1_sem2_0 : DmaSem sig := 13
abbrev cc1_sem3_0 : DmaSem sig := 14
abbrev cc1_sem4_0 : DmaSem sig := 15
abbrev cc1_sem5_0 : DmaSem sig := 16
abbrev cc1_sem5_1 : DmaSem sig := 17

abbrev nD : Nat := 1
abbrev τ : Topo := Topo.v7x

variable {F : FTy → Type} [FloatOps F]

abbrev grid0 : Pipeline.Grid := ⟨1, ![50], ![false]⟩

def cc0_transform_0 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_1 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_2 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_3 (i : grid0.Coords) : Fin 1 → Nat :=
  let arg0 : BitVec 32 := BitVec.ofNat 32 (i 0).val
  let c0_i32 : BitVec 32 := 0#32
  let c0_i32_0 : BitVec 32 := 0#32
  ![c0_i32.toNat]

def cc0_transform_4 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_5 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage0_0 : Fin 2 → Memref sig .tc .vmem S2000x128 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 2 → Memref sig .tc .vmem S2000x128 .f32 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true]

abbrev stage0_2 : Fin 1 → Memref sig .tc .vmem S128x128 .f32 := fun | 0 => Memref.whole cc0_stg2_0 | ⟨_ + 1, h⟩ => absurd h (Nat.not_lt.2 (Nat.le_add_left _ _))
abbrev sem0_2 : Fin 1 → DmaSem sig := fun | 0 => cc0_sem2_0 | ⟨_ + 1, h⟩ => absurd h (Nat.not_lt.2 (Nat.le_add_left _ _))
abbrev reads0_2 : Fin grid0.rank → Bool := ![false]

abbrev stage0_3 : Fin 1 → Memref sig .tc .vmem S128 .f32 := fun | 0 => Memref.whole cc0_stg3_0 | ⟨_ + 1, h⟩ => absurd h (Nat.not_lt.2 (Nat.le_add_left _ _))
abbrev sem0_3 : Fin 1 → DmaSem sig := fun | 0 => cc0_sem3_0 | ⟨_ + 1, h⟩ => absurd h (Nat.not_lt.2 (Nat.le_add_left _ _))
abbrev reads0_3 : Fin grid0.rank → Bool := ![false]

abbrev stage0_4 : Fin 1 → Memref sig .tc .vmem S128x128 .f32 := fun | 0 => Memref.whole cc0_stg4_0 | ⟨_ + 1, h⟩ => absurd h (Nat.not_lt.2 (Nat.le_add_left _ _))
abbrev sem0_4 : Fin 1 → DmaSem sig := fun | 0 => cc0_sem4_0 | ⟨_ + 1, h⟩ => absurd h (Nat.not_lt.2 (Nat.le_add_left _ _))
abbrev reads0_4 : Fin grid0.rank → Bool := ![false]

abbrev stage0_5 : Fin 2 → Memref sig .tc .vmem S2000x128 .f32 := fun | 0 => Memref.whole cc0_stg5_0 | 1 => Memref.whole cc0_stg5_1 | ⟨_ + 2, h⟩ => absurd h (Nat.not_lt.2 (Nat.le_add_left _ _))
abbrev sem0_5 : Fin 2 → DmaSem sig := fun | 0 => cc0_sem5_0 | 1 => cc0_sem5_1 | ⟨_ + 2, h⟩ => absurd h (Nat.not_lt.2 (Nat.le_add_left _ _))
abbrev reads0_5 : Fin grid0.rank → Bool := ![true]

abbrev grid1 : Pipeline.Grid := ⟨1, ![50], ![false]⟩

def cc1_transform_0 (i : grid1.Coords) : Fin 2 → Nat :=
  let arg0 : BitVec 32 := BitVec.ofNat 32 (i 0).val
  let c0_i32 : BitVec 32 := 0#32
  let c0_i32_0 : BitVec 32 := 0#32
  ![arg0.toNat, c0_i32.toNat]

def cc1_transform_1 (i : grid1.Coords) : Fin 2 → Nat :=
  let arg0 : BitVec 32 := BitVec.ofNat 32 (i 0).val
  let c0_i32 : BitVec 32 := 0#32
  let c0_i32_0 : BitVec 32 := 0#32
  ![arg0.toNat, c0_i32.toNat]

def cc1_transform_2 (i : grid1.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc1_transform_3 (i : grid1.Coords) : Fin 1 → Nat :=
  let arg0 : BitVec 32 := BitVec.ofNat 32 (i 0).val
  let c0_i32 : BitVec 32 := 0#32
  let c0_i32_0 : BitVec 32 := 0#32
  ![c0_i32.toNat]

def cc1_transform_4 (i : grid1.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc1_transform_5 (i : grid1.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage1_0 : Fin 2 → Memref sig .tc .vmem S2000x128 .f32 := fun | 0 => Memref.whole cc1_stg0_0 | 1 => Memref.whole cc1_stg0_1 | ⟨_ + 2, h⟩ => absurd h (Nat.not_lt.2 (Nat.le_add_left _ _))
abbrev sem1_0 : Fin 2 → DmaSem sig := fun | 0 => cc1_sem0_0 | 1 => cc1_sem0_1 | ⟨_ + 2, h⟩ => absurd h (Nat.not_lt.2 (Nat.le_add_left _ _))
abbrev reads1_0 : Fin grid1.rank → Bool := ![true]

abbrev stage1_1 : Fin 2 → Memref sig .tc .vmem S2000x128 .f32 := fun | 0 => Memref.whole cc1_stg1_0 | 1 => Memref.whole cc1_stg1_1 | ⟨_ + 2, h⟩ => absurd h (Nat.not_lt.2 (Nat.le_add_left _ _))
abbrev sem1_1 : Fin 2 → DmaSem sig := fun | 0 => cc1_sem1_0 | 1 => cc1_sem1_1 | ⟨_ + 2, h⟩ => absurd h (Nat.not_lt.2 (Nat.le_add_left _ _))
abbrev reads1_1 : Fin grid1.rank → Bool := ![true]

abbrev stage1_2 : Fin 1 → Memref sig .tc .vmem S128x128 .f32 := fun | 0 => Memref.whole cc1_stg2_0 | ⟨_ + 1, h⟩ => absurd h (Nat.not_lt.2 (Nat.le_add_left _ _))
abbrev sem1_2 : Fin 1 → DmaSem sig := fun | 0 => cc1_sem2_0 | ⟨_ + 1, h⟩ => absurd h (Nat.not_lt.2 (Nat.le_add_left _ _))
abbrev reads1_2 : Fin grid1.rank → Bool := ![false]

abbrev stage1_3 : Fin 1 → Memref sig .tc .vmem S128 .f32 := fun | 0 => Memref.whole cc1_stg3_0 | ⟨_ + 1, h⟩ => absurd h (Nat.not_lt.2 (Nat.le_add_left _ _))
abbrev sem1_3 : Fin 1 → DmaSem sig := fun | 0 => cc1_sem3_0 | ⟨_ + 1, h⟩ => absurd h (Nat.not_lt.2 (Nat.le_add_left _ _))
abbrev reads1_3 : Fin grid1.rank → Bool := ![false]

abbrev stage1_4 : Fin 1 → Memref sig .tc .vmem S128x128 .f32 := fun | 0 => Memref.whole cc1_stg4_0 | ⟨_ + 1, h⟩ => absurd h (Nat.not_lt.2 (Nat.le_add_left _ _))
abbrev sem1_4 : Fin 1 → DmaSem sig := fun | 0 => cc1_sem4_0 | ⟨_ + 1, h⟩ => absurd h (Nat.not_lt.2 (Nat.le_add_left _ _))
abbrev reads1_4 : Fin grid1.rank → Bool := ![false]

abbrev stage1_5 : Fin 2 → Memref sig .tc .vmem S2000x128 .f32 := fun | 0 => Memref.whole cc1_stg5_0 | 1 => Memref.whole cc1_stg5_1 | ⟨_ + 2, h⟩ => absurd h (Nat.not_lt.2 (Nat.le_add_left _ _))
abbrev sem1_5 : Fin 2 → DmaSem sig := fun | 0 => cc1_sem5_0 | 1 => cc1_sem5_1 | ⟨_ + 2, h⟩ => absurd h (Nat.not_lt.2 (Nat.le_add_left _ _))
abbrev reads1_5 : Fin grid1.rank → Bool := ![true]

class Facts₀ : Prop where
  slices_S2x1600000_S1x1600000_0_0 : S2x1600000.Slices ![0, 0] S1x1600000
  shapeCasts_S1x1600000_S1600000 : S1x1600000.ShapeCasts S1600000
  slices_S2x1600000_S1x1600000_1_0 : S2x1600000.Slices ![1, 0] S1x1600000
  bcast_S_S1600000 : S_.BroadcastsInDim S1600000 (![] : Fin 0 → Fin S1600000.rank)
  bcast_S1600000_S1600000x1_0 : S1600000.BroadcastsInDim S1600000x1 (![0] : Fin 1 → Fin S1600000x1.rank)
  bcast_S_S100000x128 : S_.BroadcastsInDim S100000x128 (![] : Fin 0 → Fin S100000x128.rank)
  bcast_S_S100000 : S_.BroadcastsInDim S100000 (![] : Fin 0 → Fin S100000.rank)
  bcast_S100000_S100000x1_0 : S100000.BroadcastsInDim S100000x1 (![0] : Fin 1 → Fin S100000x1.rank)
  bcast_S100000x1_S100000x128_0_1 : S100000x1.BroadcastsInDim S100000x128 (![0, 1] : Fin 2 → Fin S100000x128.rank)
  inb_S2000x128_S2000x128_0_0 : ∀ a, (![0, 0] : Fin 2 → Nat) a + S2000x128.size a ≤ S2000x128.size a
  h_S2000x128 : 0 < S2000x128.numel
  shapeCasts_S2000x128_S2000x128 : S2000x128.ShapeCasts S2000x128
  bitsLt_bf16_f32 : FTy.bits .bf16 < FTy.bits .f32
  inb_S128x128_S128x128_0_0 : ∀ a, (![0, 0] : Fin 2 → Nat) a + S128x128.size a ≤ S128x128.size a
  h_S128x128 : 0 < S128x128.numel
  inb_S128_S128_0 : ∀ a, (![0] : Fin 1 → Nat) a + S128.size a ≤ S128.size a
  h_S128 : 0 < S128.numel
  shapeCasts_S128_S1x128 : S128.ShapeCasts S1x128
  broadcasts_S1x128_S2000x128 : S1x128.Broadcasts S2000x128
  gather_S100000x128_S1600000x1_S1600000x128_1_0_n_n_0_1_1128_wf : GatherDims.WF S100000x128 S1600000x1 S1600000x128 [1] [0] [] [0] [] 1 ![1, 128]
  scatter_S100000x128_S1600000x1_S1600000x128_1_0_0_1_wf : ScatterDims.WF S100000x128 S1600000x1 S1600000x128 [1] [0] [0] 1
  scatter_S100000_S1600000x1_S1600000_n_0_0_1_wf : ScatterDims.WF S100000 S1600000x1 S1600000 [] [0] [0] 1
  dot_S2000x128_S128x128_S2000x128_1_1_0_0_n_n_wf : DotDims.WF S2000x128 S128x128 S2000x128 [1] [1] [0] [0] [] []
  hrank0 : 0 < grid0.rank
  hstage0_0 : ∀ j, (stage0_0 j).IsWhole
  nbuf0_0 : grid0.bufCount reads0_0 false = 2
  hreads0_0 : ∀ i i' : grid0.Coords, (∀ a, reads0_0 a = true → i a = i' a) → cc0_transform_0 i = cc0_transform_0 i'
  hinb0_0 : ∀ (i : grid0.Coords) a, (cc0_transform_0 i a + 1) * S2000x128.size a ≤ S100000x128.size a
  hwx0_0 : ∀ i : grid0.Coords, EltTy.bits .f32 = 32 ∨ (Rect.block (s := S100000x128) S2000x128.size (cc0_transform_0 i) (hinb0_0 i)).WholeWords (EltTy.packing .f32)
  hstage0_1 : ∀ j, (stage0_1 j).IsWhole
  nbuf0_1 : grid0.bufCount reads0_1 false = 2
  hreads0_1 : ∀ i i' : grid0.Coords, (∀ a, reads0_1 a = true → i a = i' a) → cc0_transform_1 i = cc0_transform_1 i'
  hinb0_1 : ∀ (i : grid0.Coords) a, (cc0_transform_1 i a + 1) * S2000x128.size a ≤ S100000x128.size a
  hwx0_1 : ∀ i : grid0.Coords, EltTy.bits .f32 = 32 ∨ (Rect.block (s := S100000x128) S2000x128.size (cc0_transform_1 i) (hinb0_1 i)).WholeWords (EltTy.packing .f32)
  hstage0_2 : ∀ j, (stage0_2 j).IsWhole
  nbuf0_2 : grid0.bufCount reads0_2 true = 1
  hreads0_2 : ∀ i i' : grid0.Coords, (∀ a, reads0_2 a = true → i a = i' a) → cc0_transform_2 i = cc0_transform_2 i'
  hinb0_2 : ∀ (i : grid0.Coords) a, (cc0_transform_2 i a + 1) * S128x128.size a ≤ S128x128.size a
  hwx0_2 : ∀ i : grid0.Coords, EltTy.bits .f32 = 32 ∨ (Rect.block (s := S128x128) S128x128.size (cc0_transform_2 i) (hinb0_2 i)).WholeWords (EltTy.packing .f32)
  hstage0_3 : ∀ j, (stage0_3 j).IsWhole
  nbuf0_3 : grid0.bufCount reads0_3 true = 1
  hreads0_3 : ∀ i i' : grid0.Coords, (∀ a, reads0_3 a = true → i a = i' a) → cc0_transform_3 i = cc0_transform_3 i'
  hinb0_3 : ∀ (i : grid0.Coords) a, (cc0_transform_3 i a + 1) * S128.size a ≤ S128.size a
  hwx0_3 : ∀ i : grid0.Coords, EltTy.bits .f32 = 32 ∨ (Rect.block (s := S128) S128.size (cc0_transform_3 i) (hinb0_3 i)).WholeWords (EltTy.packing .f32)
  hstage0_4 : ∀ j, (stage0_4 j).IsWhole
  nbuf0_4 : grid0.bufCount reads0_4 true = 1
  hreads0_4 : ∀ i i' : grid0.Coords, (∀ a, reads0_4 a = true → i a = i' a) → cc0_transform_4 i = cc0_transform_4 i'
  hinb0_4 : ∀ (i : grid0.Coords) a, (cc0_transform_4 i a + 1) * S128x128.size a ≤ S128x128.size a
  hwx0_4 : ∀ i : grid0.Coords, EltTy.bits .f32 = 32 ∨ (Rect.block (s := S128x128) S128x128.size (cc0_transform_4 i) (hinb0_4 i)).WholeWords (EltTy.packing .f32)
  hstage0_5 : ∀ j, (stage0_5 j).IsWhole
  nbuf0_5 : grid0.bufCount reads0_5 false = 2
  hreads0_5 : ∀ i i' : grid0.Coords, (∀ a, reads0_5 a = true → i a = i' a) → cc0_transform_5 i = cc0_transform_5 i'
  hinb0_5 : ∀ (i : grid0.Coords) a, (cc0_transform_5 i a + 1) * S2000x128.size a ≤ S100000x128.size a
  hwx0_5 : ∀ i : grid0.Coords, EltTy.bits .f32 = 32 ∨ (Rect.block (s := S100000x128) S2000x128.size (cc0_transform_5 i) (hinb0_5 i)).WholeWords (EltTy.packing .f32)
  hrank1 : 0 < grid1.rank
  hstage1_0 : ∀ j, (stage1_0 j).IsWhole
  nbuf1_0 : grid1.bufCount reads1_0 false = 2
  hreads1_0 : ∀ i i' : grid1.Coords, (∀ a, reads1_0 a = true → i a = i' a) → cc1_transform_0 i = cc1_transform_0 i'
  hinb1_0 : ∀ (i : grid1.Coords) a, (cc1_transform_0 i a + 1) * S2000x128.size a ≤ S100000x128.size a
  hwx1_0 : ∀ i : grid1.Coords, EltTy.bits .f32 = 32 ∨ (Rect.block (s := S100000x128) S2000x128.size (cc1_transform_0 i) (hinb1_0 i)).WholeWords (EltTy.packing .f32)
  hstage1_1 : ∀ j, (stage1_1 j).IsWhole
  nbuf1_1 : grid1.bufCount reads1_1 false = 2
  hreads1_1 : ∀ i i' : grid1.Coords, (∀ a, reads1_1 a = true → i a = i' a) → cc1_transform_1 i = cc1_transform_1 i'
  hinb1_1 : ∀ (i : grid1.Coords) a, (cc1_transform_1 i a + 1) * S2000x128.size a ≤ S100000x128.size a
  hwx1_1 : ∀ i : grid1.Coords, EltTy.bits .f32 = 32 ∨ (Rect.block (s := S100000x128) S2000x128.size (cc1_transform_1 i) (hinb1_1 i)).WholeWords (EltTy.packing .f32)
  hstage1_2 : ∀ j, (stage1_2 j).IsWhole
  nbuf1_2 : grid1.bufCount reads1_2 true = 1
  hreads1_2 : ∀ i i' : grid1.Coords, (∀ a, reads1_2 a = true → i a = i' a) → cc1_transform_2 i = cc1_transform_2 i'
  hinb1_2 : ∀ (i : grid1.Coords) a, (cc1_transform_2 i a + 1) * S128x128.size a ≤ S128x128.size a
  hwx1_2 : ∀ i : grid1.Coords, EltTy.bits .f32 = 32 ∨ (Rect.block (s := S128x128) S128x128.size (cc1_transform_2 i) (hinb1_2 i)).WholeWords (EltTy.packing .f32)
  hstage1_3 : ∀ j, (stage1_3 j).IsWhole
  nbuf1_3 : grid1.bufCount reads1_3 true = 1
  hreads1_3 : ∀ i i' : grid1.Coords, (∀ a, reads1_3 a = true → i a = i' a) → cc1_transform_3 i = cc1_transform_3 i'
  hinb1_3 : ∀ (i : grid1.Coords) a, (cc1_transform_3 i a + 1) * S128.size a ≤ S128.size a
  hwx1_3 : ∀ i : grid1.Coords, EltTy.bits .f32 = 32 ∨ (Rect.block (s := S128) S128.size (cc1_transform_3 i) (hinb1_3 i)).WholeWords (EltTy.packing .f32)
  hstage1_4 : ∀ j, (stage1_4 j).IsWhole
  nbuf1_4 : grid1.bufCount reads1_4 true = 1
  hreads1_4 : ∀ i i' : grid1.Coords, (∀ a, reads1_4 a = true → i a = i' a) → cc1_transform_4 i = cc1_transform_4 i'
  hinb1_4 : ∀ (i : grid1.Coords) a, (cc1_transform_4 i a + 1) * S128x128.size a ≤ S128x128.size a
  hwx1_4 : ∀ i : grid1.Coords, EltTy.bits .f32 = 32 ∨ (Rect.block (s := S128x128) S128x128.size (cc1_transform_4 i) (hinb1_4 i)).WholeWords (EltTy.packing .f32)
  hstage1_5 : ∀ j, (stage1_5 j).IsWhole
  nbuf1_5 : grid1.bufCount reads1_5 false = 2
  hreads1_5 : ∀ i i' : grid1.Coords, (∀ a, reads1_5 a = true → i a = i' a) → cc1_transform_5 i = cc1_transform_5 i'
  hinb1_5 : ∀ (i : grid1.Coords) a, (cc1_transform_5 i a + 1) * S2000x128.size a ≤ S100000x128.size a
  hwx1_5 : ∀ i : grid1.Coords, EltTy.bits .f32 = 32 ∨ (Rect.block (s := S100000x128) S2000x128.size (cc1_transform_5 i) (hinb1_5 i)).WholeWords (EltTy.packing .f32)

variable [Facts₀]

def gather_S100000x128_S1600000x1_S1600000x128_1_0_n_n_0_1_1128 : GatherDims S100000x128 S1600000x1 S1600000x128 where
  offsetDims := [1]
  collapsedSliceDims := [0]
  operandBatchingDims := []
  startIndicesBatchingDims := []
  startIndexMap := [0]
  indexVectorDim := 1
  sliceSizes := ![1, 128]
  wf := gather_S100000x128_S1600000x1_S1600000x128_1_0_n_n_0_1_1128_wf
def scatter_S100000x128_S1600000x1_S1600000x128_1_0_0_1 : ScatterDims S100000x128 S1600000x1 S1600000x128 where
  updateWindowDims := [1]
  insertedWindowDims := [0]
  scatterDimsToOperandDims := [0]
  indexVectorDim := 1
  wf := scatter_S100000x128_S1600000x1_S1600000x128_1_0_0_1_wf
def scatter_S100000_S1600000x1_S1600000_n_0_0_1 : ScatterDims S100000 S1600000x1 S1600000 where
  updateWindowDims := []
  insertedWindowDims := [0]
  scatterDimsToOperandDims := [0]
  indexVectorDim := 1
  wf := scatter_S100000_S1600000x1_S1600000_n_0_0_1_wf
def dot_S2000x128_S128x128_S2000x128_1_1_0_0_n_n : DotDims S2000x128 S128x128 S2000x128 where
  lhsContracting := [1]
  rhsContracting := [1]
  lhsNonContracting := [0]
  rhsNonContracting := [0]
  lhsBatch := []
  rhsBatch := []
  wf := dot_S2000x128_S128x128_S2000x128_1_1_0_0_n_n_wf

abbrev win0_0 : Pipeline.Window sig grid0 :=
  Pipeline.Window.ofSpec (Memref.whole main_v22) S2000x128.size cc0_transform_0 reads0_0 false false 2 stage0_0 sem0_0
    hrank0 hreads0_0 hinb0_0 nbuf0_0 (Memref.isWhole_whole _) hwx0_0 hstage0_0

abbrev win0_1 : Pipeline.Window sig grid0 :=
  Pipeline.Window.ofSpec (Memref.whole main_arg0) S2000x128.size cc0_transform_1 reads0_1 false false 2 stage0_1 sem0_1
    hrank0 hreads0_1 hinb0_1 nbuf0_1 (Memref.isWhole_whole _) hwx0_1 hstage0_1

abbrev win0_2 : Pipeline.Window sig grid0 :=
  Pipeline.Window.ofSpec (Memref.whole main_arg2) S128x128.size cc0_transform_2 reads0_2 false true 1 stage0_2 sem0_2
    hrank0 hreads0_2 hinb0_2 nbuf0_2 (Memref.isWhole_whole _) hwx0_2 hstage0_2

abbrev win0_3 : Pipeline.Window sig grid0 :=
  Pipeline.Window.ofSpec (Memref.whole main_arg3) S128.size cc0_transform_3 reads0_3 false true 1 stage0_3 sem0_3
    hrank0 hreads0_3 hinb0_3 nbuf0_3 (Memref.isWhole_whole _) hwx0_3 hstage0_3

abbrev win0_4 : Pipeline.Window sig grid0 :=
  Pipeline.Window.ofSpec (Memref.whole main_arg4) S128x128.size cc0_transform_4 reads0_4 false true 1 stage0_4 sem0_4
    hrank0 hreads0_4 hinb0_4 nbuf0_4 (Memref.isWhole_whole _) hwx0_4 hstage0_4

abbrev win0_5 : Pipeline.Window sig grid0 :=
  Pipeline.Window.ofSpec (Memref.whole main_v23) S2000x128.size cc0_transform_5 reads0_5 true false 2 stage0_5 sem0_5
    hrank0 hreads0_5 hinb0_5 nbuf0_5 (Memref.isWhole_whole _) hwx0_5 hstage0_5

abbrev win0 : Fin 6 → Pipeline.Window sig grid0 := fun | 0 => win0_0 | 1 => win0_1 | 2 => win0_2 | 3 => win0_3 | 4 => win0_4 | 5 => win0_5 | ⟨_ + 6, h⟩ => absurd h (Nat.not_lt.2 (Nat.le_add_left _ _))
abbrev spec0 : Fin 6 → Pipeline.WinSpec sig grid0.rank := fun w => (win0 w).toWinSpec

abbrev win1_0 : Pipeline.Window sig grid1 :=
  Pipeline.Window.ofSpec (Memref.whole main_v42) S2000x128.size cc1_transform_0 reads1_0 false false 2 stage1_0 sem1_0
    hrank1 hreads1_0 hinb1_0 nbuf1_0 (Memref.isWhole_whole _) hwx1_0 hstage1_0

abbrev win1_1 : Pipeline.Window sig grid1 :=
  Pipeline.Window.ofSpec (Memref.whole main_v23) S2000x128.size cc1_transform_1 reads1_1 false false 2 stage1_1 sem1_1
    hrank1 hreads1_1 hinb1_1 nbuf1_1 (Memref.isWhole_whole _) hwx1_1 hstage1_1

abbrev win1_2 : Pipeline.Window sig grid1 :=
  Pipeline.Window.ofSpec (Memref.whole main_arg5) S128x128.size cc1_transform_2 reads1_2 false true 1 stage1_2 sem1_2
    hrank1 hreads1_2 hinb1_2 nbuf1_2 (Memref.isWhole_whole _) hwx1_2 hstage1_2

abbrev win1_3 : Pipeline.Window sig grid1 :=
  Pipeline.Window.ofSpec (Memref.whole main_arg6) S128.size cc1_transform_3 reads1_3 false true 1 stage1_3 sem1_3
    hrank1 hreads1_3 hinb1_3 nbuf1_3 (Memref.isWhole_whole _) hwx1_3 hstage1_3

abbrev win1_4 : Pipeline.Window sig grid1 :=
  Pipeline.Window.ofSpec (Memref.whole main_arg7) S128x128.size cc1_transform_4 reads1_4 false true 1 stage1_4 sem1_4
    hrank1 hreads1_4 hinb1_4 nbuf1_4 (Memref.isWhole_whole _) hwx1_4 hstage1_4

abbrev win1_5 : Pipeline.Window sig grid1 :=
  Pipeline.Window.ofSpec (Memref.whole main_v43) S2000x128.size cc1_transform_5 reads1_5 true false 2 stage1_5 sem1_5
    hrank1 hreads1_5 hinb1_5 nbuf1_5 (Memref.isWhole_whole _) hwx1_5 hstage1_5

abbrev win1 : Fin 6 → Pipeline.Window sig grid1 := fun | 0 => win1_0 | 1 => win1_1 | 2 => win1_2 | 3 => win1_3 | 4 => win1_4 | 5 => win1_5 | ⟨_ + 6, h⟩ => absurd h (Nat.not_lt.2 (Nat.le_add_left _ _))
abbrev spec1 : Fin 6 → Pipeline.WinSpec sig grid1.rank := fun w => (win1 w).toWinSpec

class Facts : Prop extends Facts₀ where

variable [Facts]
-- ==== ReferenceIdeal.lean ====
abbrev S100000x128 : Shape := ⟨2, ![100000, 128]⟩
abbrev S2x1600000 : Shape := ⟨2, ![2, 1600000]⟩
abbrev S128x128 : Shape := ⟨2, ![128, 128]⟩
abbrev S128 : Shape := ⟨1, ![128]⟩
abbrev S1x1600000 : Shape := ⟨2, ![1, 1600000]⟩
abbrev S1600000 : Shape := ⟨1, ![1600000]⟩
abbrev S_ : Shape := ⟨0, ![]⟩
abbrev S1600000x1 : Shape := ⟨2, ![1600000, 1]⟩
abbrev S1600000x128 : Shape := ⟨2, ![1600000, 128]⟩
abbrev S100000 : Shape := ⟨1, ![100000]⟩
abbrev S100000x1 : Shape := ⟨2, ![100000, 1]⟩
abbrev S1x128 : Shape := ⟨2, ![1, 128]⟩

abbrev nBuf : Space → Nat
  | .hbm => 81
  | .vmem => 0
  | .smem => 0
  | _ => 0

abbrev bufTy : (tb : Table) → Fin (tcTables nBuf tb) → BufTy
  | .hbm, ⟨0, _⟩ => ⟨S100000x128, .f32⟩
  | .hbm, ⟨1, _⟩ => ⟨S2x1600000, .i32⟩
  | .hbm, ⟨2, _⟩ => ⟨S128x128, .f32⟩
  | .hbm, ⟨3, _⟩ => ⟨S128, .f32⟩
  | .hbm, ⟨4, _⟩ => ⟨S128x128, .f32⟩
  | .hbm, ⟨5, _⟩ => ⟨S128x128, .f32⟩
  | .hbm, ⟨6, _⟩ => ⟨S128, .f32⟩
  | .hbm, ⟨7, _⟩ => ⟨S128x128, .f32⟩
  | .hbm, ⟨8, _⟩ => ⟨S1x1600000, .i32⟩
  | .hbm, ⟨9, _⟩ => ⟨S1600000, .i32⟩
  | .hbm, ⟨10, _⟩ => ⟨S1x1600000, .i32⟩
  | .hbm, ⟨11, _⟩ => ⟨S1600000, .i32⟩
  | .hbm, ⟨12, _⟩ => ⟨S_, .i32⟩
  | .hbm, ⟨13, _⟩ => ⟨S1600000, .i32⟩
  | .hbm, ⟨14, _⟩ => ⟨S1600000, .i1⟩
  | .hbm, ⟨15, _⟩ => ⟨S_, .i32⟩
  | .hbm, ⟨16, _⟩ => ⟨S1600000, .i32⟩
  | .hbm, ⟨17, _⟩ => ⟨S1600000, .i32⟩
  | .hbm, ⟨18, _⟩ => ⟨S1600000, .i32⟩
  | .hbm, ⟨19, _⟩ => ⟨S1600000x1, .i32⟩
  | .hbm, ⟨20, _⟩ => ⟨S1600000x128, .f32⟩
  | .hbm, ⟨21, _⟩ => ⟨S_, .f32⟩
  | .hbm, ⟨22, _⟩ => ⟨S100000x128, .f32⟩
  | .hbm, ⟨23, _⟩ => ⟨S1600000x1, .i32⟩
  | .hbm, ⟨24, _⟩ => ⟨S100000x128, .f32⟩
  | .hbm, ⟨25, _⟩ => ⟨S_, .f32⟩
  | .hbm, ⟨26, _⟩ => ⟨S1600000, .f32⟩
  | .hbm, ⟨27, _⟩ => ⟨S_, .f32⟩
  | .hbm, ⟨28, _⟩ => ⟨S100000, .f32⟩
  | .hbm, ⟨29, _⟩ => ⟨S1600000x1, .i32⟩
  | .hbm, ⟨30, _⟩ => ⟨S100000, .f32⟩
  | .hbm, ⟨31, _⟩ => ⟨S_, .f32⟩
  | .hbm, ⟨32, _⟩ => ⟨S100000, .f32⟩
  | .hbm, ⟨33, _⟩ => ⟨S100000, .f32⟩
  | .hbm, ⟨34, _⟩ => ⟨S100000x1, .f32⟩
  | .hbm, ⟨35, _⟩ => ⟨S100000x128, .f32⟩
  | .hbm, ⟨36, _⟩ => ⟨S100000x128, .f32⟩
  | .hbm, ⟨37, _⟩ => ⟨S128x128, .f32⟩
  | .hbm, ⟨38, _⟩ => ⟨S100000x128, .f32⟩
  | .hbm, ⟨39, _⟩ => ⟨S1x128, .f32⟩
  | .hbm, ⟨40, _⟩ => ⟨S100000x128, .f32⟩
  | .hbm, ⟨41, _⟩ => ⟨S100000x128, .f32⟩
  | .hbm, ⟨42, _⟩ => ⟨S128x128, .f32⟩
  | .hbm, ⟨43, _⟩ => ⟨S100000x128, .f32⟩
  | .hbm, ⟨44, _⟩ => ⟨S100000x128, .f32⟩
  | .hbm, ⟨45, _⟩ => ⟨S_, .f32⟩
  | .hbm, ⟨46, _⟩ => ⟨S100000x128, .f32⟩
  | .hbm, ⟨47, _⟩ => ⟨S100000x128, .f32⟩
  | .hbm, ⟨48, _⟩ => ⟨S_, .i32⟩
  | .hbm, ⟨49, _⟩ => ⟨S1600000, .i32⟩
  | .hbm, ⟨50, _⟩ => ⟨S1600000, .i1⟩
  | .hbm, ⟨51, _⟩ => ⟨S_, .i32⟩
  | .hbm, ⟨52, _⟩ => ⟨S1600000, .i32⟩
  | .hbm, ⟨53, _⟩ => ⟨S1600000, .i32⟩
  | .hbm, ⟨54, _⟩ => ⟨S1600000, .i32⟩
  | .hbm, ⟨55, _⟩ => ⟨S1600000x1, .i32⟩
  | .hbm, ⟨56, _⟩ => ⟨S1600000x128, .f32⟩
  | .hbm, ⟨57, _⟩ => ⟨S_, .f32⟩
  | .hbm, ⟨58, _⟩ => ⟨S100000x128, .f32⟩
  | .hbm, ⟨59, _⟩ => ⟨S1600000x1, .i32⟩
  | .hbm, ⟨60, _⟩ => ⟨S100000x128, .f32⟩
  | .hbm, ⟨61, _⟩ => ⟨S_, .f32⟩
  | .hbm, ⟨62, _⟩ => ⟨S1600000, .f32⟩
  | .hbm, ⟨63, _⟩ => ⟨S_, .f32⟩
  | .hbm, ⟨64, _⟩ => ⟨S100000, .f32⟩
  | .hbm, ⟨65, _⟩ => ⟨S1600000x1, .i32⟩
  | .hbm, ⟨66, _⟩ => ⟨S100000, .f32⟩
  | .hbm, ⟨67, _⟩ => ⟨S_, .f32⟩
  | .hbm, ⟨68, _⟩ => ⟨S100000, .f32⟩
  | .hbm, ⟨69, _⟩ => ⟨S100000, .f32⟩
  | .hbm, ⟨70, _⟩ => ⟨S100000x1, .f32⟩
  | .hbm, ⟨71, _⟩ => ⟨S100000x128, .f32⟩
  | .hbm, ⟨72, _⟩ => ⟨S100000x128, .f32⟩
  | .hbm, ⟨73, _⟩ => ⟨S128x128, .f32⟩
  | .hbm, ⟨74, _⟩ => ⟨S100000x128, .f32⟩
  | .hbm, ⟨75, _⟩ => ⟨S1x128, .f32⟩
  | .hbm, ⟨76, _⟩ => ⟨S100000x128, .f32⟩
  | .hbm, ⟨77, _⟩ => ⟨S100000x128, .f32⟩
  | .hbm, ⟨78, _⟩ => ⟨S128x128, .f32⟩
  | .hbm, ⟨79, _⟩ => ⟨S100000x128, .f32⟩
  | .hbm, ⟨80, _⟩ => ⟨S100000x128, .f32⟩
  | _, _ => ⟨S100000x128, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_arg7 : Ref sig .tc := ⟨.hbm, 7, rfl⟩
abbrev main_v0 : Ref sig .tc := ⟨.hbm, 8, rfl⟩
abbrev main_v1 : Ref sig .tc := ⟨.hbm, 9, rfl⟩
abbrev main_v2 : Ref sig .tc := ⟨.hbm, 10, rfl⟩
abbrev main_v3 : Ref sig .tc := ⟨.hbm, 11, rfl⟩
abbrev main_c : Ref sig .tc := ⟨.hbm, 12, rfl⟩
abbrev main_v4 : Ref sig .tc := ⟨.hbm, 13, rfl⟩
abbrev main_v5 : Ref sig .tc := ⟨.hbm, 14, rfl⟩
abbrev main_c_0 : Ref sig .tc := ⟨.hbm, 15, rfl⟩
abbrev main_v6 : Ref sig .tc := ⟨.hbm, 16, rfl⟩
abbrev main_v7 : Ref sig .tc := ⟨.hbm, 17, rfl⟩
abbrev main_v8 : Ref sig .tc := ⟨.hbm, 18, rfl⟩
abbrev main_v9 : Ref sig .tc := ⟨.hbm, 19, rfl⟩
abbrev main_v10 : Ref sig .tc := ⟨.hbm, 20, rfl⟩
abbrev main_cst : Ref sig .tc := ⟨.hbm, 21, rfl⟩
abbrev main_v11 : Ref sig .tc := ⟨.hbm, 22, rfl⟩
abbrev main_v12 : Ref sig .tc := ⟨.hbm, 23, rfl⟩
abbrev main_v13 : Ref sig .tc := ⟨.hbm, 24, rfl⟩
abbrev main_cst_1 : Ref sig .tc := ⟨.hbm, 25, rfl⟩
abbrev main_v14 : Ref sig .tc := ⟨.hbm, 26, rfl⟩
abbrev main_cst_2 : Ref sig .tc := ⟨.hbm, 27, rfl⟩
abbrev main_v15 : Ref sig .tc := ⟨.hbm, 28, rfl⟩
abbrev main_v16 : Ref sig .tc := ⟨.hbm, 29, rfl⟩
abbrev main_v17 : Ref sig .tc := ⟨.hbm, 30, rfl⟩
abbrev main_cst_3 : Ref sig .tc := ⟨.hbm, 31, rfl⟩
abbrev main_v18 : Ref sig .tc := ⟨.hbm, 32, rfl⟩
abbrev main_v19 : Ref sig .tc := ⟨.hbm, 33, rfl⟩
abbrev main_v20 : Ref sig .tc := ⟨.hbm, 34, rfl⟩
abbrev main_v21 : Ref sig .tc := ⟨.hbm, 35, rfl⟩
abbrev main_v22 : Ref sig .tc := ⟨.hbm, 36, rfl⟩
abbrev main_v23 : Ref sig .tc := ⟨.hbm, 37, rfl⟩
abbrev main_v24 : Ref sig .tc := ⟨.hbm, 38, rfl⟩
abbrev main_v25 : Ref sig .tc := ⟨.hbm, 39, rfl⟩
abbrev main_v26 : Ref sig .tc := ⟨.hbm, 40, rfl⟩
abbrev main_v27 : Ref sig .tc := ⟨.hbm, 41, rfl⟩
abbrev main_v28 : Ref sig .tc := ⟨.hbm, 42, rfl⟩
abbrev main_v29 : Ref sig .tc := ⟨.hbm, 43, rfl⟩
abbrev main_v30 : Ref sig .tc := ⟨.hbm, 44, rfl⟩
abbrev main_call0_cst : Ref sig .tc := ⟨.hbm, 45, rfl⟩
abbrev main_call0_v0 : Ref sig .tc := ⟨.hbm, 46, rfl⟩
abbrev main_v31 : Ref sig .tc := ⟨.hbm, 47, rfl⟩
abbrev main_c_4 : Ref sig .tc := ⟨.hbm, 48, rfl⟩
abbrev main_v32 : Ref sig .tc := ⟨.hbm, 49, rfl⟩
abbrev main_v33 : Ref sig .tc := ⟨.hbm, 50, rfl⟩
abbrev main_c_5 : Ref sig .tc := ⟨.hbm, 51, rfl⟩
abbrev main_v34 : Ref sig .tc := ⟨.hbm, 52, rfl⟩
abbrev main_v35 : Ref sig .tc := ⟨.hbm, 53, rfl⟩
abbrev main_v36 : Ref sig .tc := ⟨.hbm, 54, rfl⟩
abbrev main_v37 : Ref sig .tc := ⟨.hbm, 55, rfl⟩
abbrev main_v38 : Ref sig .tc := ⟨.hbm, 56, rfl⟩
abbrev main_cst_6 : Ref sig .tc := ⟨.hbm, 57, rfl⟩
abbrev main_v39 : Ref sig .tc := ⟨.hbm, 58, rfl⟩
abbrev main_v40 : Ref sig .tc := ⟨.hbm, 59, rfl⟩
abbrev main_v41 : Ref sig .tc := ⟨.hbm, 60, rfl⟩
abbrev main_cst_7 : Ref sig .tc := ⟨.hbm, 61, rfl⟩
abbrev main_v42 : Ref sig .tc := ⟨.hbm, 62, rfl⟩
abbrev main_cst_8 : Ref sig .tc := ⟨.hbm, 63, rfl⟩
abbrev main_v43 : Ref sig .tc := ⟨.hbm, 64, rfl⟩
abbrev main_v44 : Ref sig .tc := ⟨.hbm, 65, rfl⟩
abbrev main_v45 : Ref sig .tc := ⟨.hbm, 66, rfl⟩
abbrev main_cst_9 : Ref sig .tc := ⟨.hbm, 67, rfl⟩
abbrev main_v46 : Ref sig .tc := ⟨.hbm, 68, rfl⟩
abbrev main_v47 : Ref sig .tc := ⟨.hbm, 69, rfl⟩
abbrev main_v48 : Ref sig .tc := ⟨.hbm, 70, rfl⟩
abbrev main_v49 : Ref sig .tc := ⟨.hbm, 71, rfl⟩
abbrev main_v50 : Ref sig .tc := ⟨.hbm, 72, rfl⟩
abbrev main_v51 : Ref sig .tc := ⟨.hbm, 73, rfl⟩
abbrev main_v52 : Ref sig .tc := ⟨.hbm, 74, rfl⟩
abbrev main_v53 : Ref sig .tc := ⟨.hbm, 75, rfl⟩
abbrev main_v54 : Ref sig .tc := ⟨.hbm, 76, rfl⟩
abbrev main_v55 : Ref sig .tc := ⟨.hbm, 77, rfl⟩
abbrev main_v56 : Ref sig .tc := ⟨.hbm, 78, rfl⟩
abbrev main_v57 : Ref sig .tc := ⟨.hbm, 79, rfl⟩
abbrev main_v58 : Ref sig .tc := ⟨.hbm, 80, rfl⟩

abbrev nD : Nat := 1
abbrev τ : Topo := Topo.v7x

variable {F : FTy → Type} [FloatOps F]

class Facts₀ : Prop where
  slices_S2x1600000_S1x1600000_0_0 : S2x1600000.Slices ![0, 0] S1x1600000
  shapeCasts_S1x1600000_S1600000 : S1x1600000.ShapeCasts S1600000
  slices_S2x1600000_S1x1600000_1_0 : S2x1600000.Slices ![1, 0] S1x1600000
  bcast_S_S1600000 : S_.BroadcastsInDim S1600000 (![] : Fin 0 → Fin S1600000.rank)
  bcast_S1600000_S1600000x1_0 : S1600000.BroadcastsInDim S1600000x1 (![0] : Fin 1 → Fin S1600000x1.rank)
  bcast_S_S100000x128 : S_.BroadcastsInDim S100000x128 (![] : Fin 0 → Fin S100000x128.rank)
  bcast_S_S100000 : S_.BroadcastsInDim S100000 (![] : Fin 0 → Fin S100000.rank)
  bcast_S100000_S100000x1_0 : S100000.BroadcastsInDim S100000x1 (![0] : Fin 1 → Fin S100000x1.rank)
  bcast_S100000x1_S100000x128_0_1 : S100000x1.BroadcastsInDim S100000x128 (![0, 1] : Fin 2 → Fin S100000x128.rank)
  transposes_S128x128_S128x128_1_0 : S128x128.Transposes [1, 0] S128x128
  bcast_S128_S1x128_1 : S128.BroadcastsInDim S1x128 (![1] : Fin 1 → Fin S1x128.rank)
  bcast_S1x128_S100000x128_0_1 : S1x128.BroadcastsInDim S100000x128 (![0, 1] : Fin 2 → Fin S100000x128.rank)
  gather_S100000x128_S1600000x1_S1600000x128_1_0_n_n_0_1_1128_wf : GatherDims.WF S100000x128 S1600000x1 S1600000x128 [1] [0] [] [0] [] 1 ![1, 128]
  scatter_S100000x128_S1600000x1_S1600000x128_1_0_0_1_wf : ScatterDims.WF S100000x128 S1600000x1 S1600000x128 [1] [0] [0] 1
  scatter_S100000_S1600000x1_S1600000_n_0_0_1_wf : ScatterDims.WF S100000 S1600000x1 S1600000 [] [0] [0] 1
  dot_S100000x128_S128x128_S100000x128_1_0_0_1_n_n_wf : DotDims.WF S100000x128 S128x128 S100000x128 [1] [0] [0] [1] [] []

variable [Facts₀]

def gather_S100000x128_S1600000x1_S1600000x128_1_0_n_n_0_1_1128 : GatherDims S100000x128 S1600000x1 S1600000x128 where
  offsetDims := [1]
  collapsedSliceDims := [0]
  operandBatchingDims := []
  startIndicesBatchingDims := []
  startIndexMap := [0]
  indexVectorDim := 1
  sliceSizes := ![1, 128]
  wf := gather_S100000x128_S1600000x1_S1600000x128_1_0_n_n_0_1_1128_wf
def scatter_S100000x128_S1600000x1_S1600000x128_1_0_0_1 : ScatterDims S100000x128 S1600000x1 S1600000x128 where
  updateWindowDims := [1]
  insertedWindowDims := [0]
  scatterDimsToOperandDims := [0]
  indexVectorDim := 1
  wf := scatter_S100000x128_S1600000x1_S1600000x128_1_0_0_1_wf
def scatter_S100000_S1600000x1_S1600000_n_0_0_1 : ScatterDims S100000 S1600000x1 S1600000 where
  updateWindowDims := []
  insertedWindowDims := [0]
  scatterDimsToOperandDims := [0]
  indexVectorDim := 1
  wf := scatter_S100000_S1600000x1_S1600000_n_0_0_1_wf
def dot_S100000x128_S128x128_S100000x128_1_0_0_1_n_n : DotDims S100000x128 S128x128 S100000x128 where
  lhsContracting := [1]
  rhsContracting := [0]
  lhsNonContracting := [0]
  rhsNonContracting := [1]
  lhsBatch := []
  rhsBatch := []
  wf := dot_S100000x128_S128x128_S100000x128_1_0_0_1_n_n_wf

class Facts : Prop extends Facts₀ where

variable [Facts]
-- ==== Proof.Payload.lean ====
/-
  What one grid point's body computes, at one entry of its 2000 × 128 output block, on the extended reals.

  The body loads a block `a` of aggregated features and a block `f` of node features (2000 rows each), the two weight
  matrices and the bias; the changes of float format are the identity here, each matrix product into the zero
  accumulator is the plain sum over the 128 contracted features (both operands are contracted along their SECOND axis),
  the bias is read at the column.  Entry (p, q) is
      (Σ_k a[p,k] · wl[q,k] + b[q]) + Σ_k f[p,k] · wr[q,k],
  and layer 1 takes the maximum of that with the float zero word.
-/
import proofs.«107292_j21337397527225_1_alg».proof.Proof.Gen.KernelIdeal.Skeleton
import Idealize.ShloMosaic.PureOps.Ideal.Laws
import Idealize.ShloMosaic.Lib.ValueIdx
import Idealize.ShloMosaic.Lib.Pipeline.Value

noncomputable section

namespace Cert.KernelIdeal.Body

open Cert.KernelIdeal Cert.KernelIdeal.Gen
open Idealize.ShloMosaic Idealize.ShloMosaic.ValueIdx

/-! ## The matrix product's operand indices -/

theorem lhs_0 (i : S2000x128.Idx) (q : dot_S2000x128_S128x128_S2000x128_1_1_0_0_n_n.contr.Idx) :
    (dot_S2000x128_S128x128_S2000x128_1_1_0_0_n_n.lhsIdx i q 0).val = (i 0).val := by
  unfold DotDims.lhsIdx
  rw [dif_neg (show ¬(0 : Fin S2000x128.rank) ∈ dot_S2000x128_S128x128_S2000x128_1_1_0_0_n_n.lhsBatch by decide), dif_pos (show (0 : Fin S2000x128.rank) ∈ dot_S2000x128_S128x128_S2000x128_1_1_0_0_n_n.lhsNonContracting by decide)]
  rfl
theorem lhs_1 (i : S2000x128.Idx) (q : dot_S2000x128_S128x128_S2000x128_1_1_0_0_n_n.contr.Idx) :
    (dot_S2000x128_S128x128_S2000x128_1_1_0_0_n_n.lhsIdx i q 1).val = (q ⟨0, by decide⟩).val :=
  dot_S2000x128_S128x128_S2000x128_1_1_0_0_n_n.lhsIdx_val_of_single rfl i q
theorem rhs_0 (i : S2000x128.Idx) (q : dot_S2000x128_S128x128_S2000x128_1_1_0_0_n_n.contr.Idx) :
    (dot_S2000x128_S128x128_S2000x128_1_1_0_0_n_n.rhsIdx i q 0).val = (i 1).val := by
  unfold DotDims.rhsIdx
  rw [dif_neg (show ¬(0 : Fin S128x128.rank) ∈ dot_S2000x128_S128x128_S2000x128_1_1_0_0_n_n.rhsBatch by decide), dif_pos (show (0 : Fin S128x128.rank) ∈ dot_S2000x128_S128x128_S2000x128_1_1_0_0_n_n.rhsNonContracting by decide)]
  rfl
theorem rhs_1 (i : S2000x128.Idx) (q : dot_S2000x128_S128x128_S2000x128_1_1_0_0_n_n.contr.Idx) :
    (dot_S2000x128_S128x128_S2000x128_1_1_0_0_n_n.rhsIdx i q 1).val = (q ⟨0, by decide⟩).val :=
  dot_S2000x128_S128x128_S2000x128_1_1_0_0_n_n.rhsIdx_val_of_single rfl i q

/-- A block of rows times a weight matrix, both contracted along the feature axis, into the zero accumulator: entry
    (p, q) is the sum over the features `k` of `a[p,k] · w[q,k]`. -/
theorem rows_times_weights (a : FVec Ideal S2000x128 .bf16) (w : FVec Ideal S128x128 .bf16) (p : Fin 2000) (q : Fin 128) :
    matmul dot_S2000x128_S128x128_S2000x128_1_1_0_0_n_n none a w (constant S2000x128 .f32 0x00000000#32) (ix2 p q)
      = ∑ k : Fin 128, a (ix2 p k) * w (ix2 q k) := by
  simp only [matmul]
  rw [Ideal.matmul_constant_zero_apply, ← Equiv.sum_comp (ValueIdx.contrEquiv1 dot_S2000x128_S128x128_S2000x128_1_1_0_0_n_n 128 rfl rfl).symm]
  refine Finset.sum_congr rfl fun k _ => ?_
  have hk := ValueIdx.contrEquiv1_symm_val dot_S2000x128_S128x128_S2000x128_1_1_0_0_n_n 128 rfl rfl k
  have el : dot_S2000x128_S128x128_S2000x128_1_1_0_0_n_n.lhsIdx (ix2 p q) ((ValueIdx.contrEquiv1 dot_S2000x128_S128x128_S2000x128_1_1_0_0_n_n 128 rfl rfl).symm k) = ix2 p k := funext fun a => Fin.ext (by
    match a with
    | ⟨0, _⟩ => exact lhs_0 _ _
    | ⟨1, _⟩ => exact (lhs_1 _ _).trans hk)
  have er : dot_S2000x128_S128x128_S2000x128_1_1_0_0_n_n.rhsIdx (ix2 p q) ((ValueIdx.contrEquiv1 dot_S2000x128_S128x128_S2000x128_1_1_0_0_n_n 128 rfl rfl).symm k) = ix2 q k := funext fun a => Fin.ext (by
    match a with
    | ⟨0, _⟩ => exact rhs_0 _ _
    | ⟨1, _⟩ => exact (rhs_1 _ _).trans hk)
  rw [el, er]

/-- The bias, given a unit row axis and repeated down the 2000 rows, read at (p, q): the bias at `q`. -/
theorem bias_at (b : FVec Ideal S128 .f32) (p : Fin 2000) (q : Fin 128) :
    broadcastTo S2000x128 (shapeCast S1x128 b Gen.shapeCasts_S128_S1x128) Gen.broadcasts_S1x128_S2000x128 (ix2 p q) = b (ix1 q) := by
  rw [broadcastTo_apply (shapeCast S1x128 b Gen.shapeCasts_S128_S1x128) Gen.broadcasts_S1x128_S2000x128 (ix2 p q) (ix2 (0 : Fin 1) q)
    (fun a => by match a with
      | ⟨0, _⟩ => rfl
      | ⟨1, _⟩ => rfl)]
  refine (shapeCast_addUnit_apply ![128] b Gen.shapeCasts_S128_S1x128 (ix2 (0 : Fin 1) q)).trans (congrArg b ?_)
  funext a
  match a with
  | ⟨0, _⟩ => rfl

/-! ## The two bodies at an entry -/

/-- Layer 1's body at entry (p, q): the dense expression, then the maximum with the zero word. -/
theorem k0_pay1_at (a f : Vec Ideal S2000x128 .f32) (wl wr : Vec Ideal S128x128 .f32) (b : Vec Ideal S128 .f32)
    (p : Fin 2000) (q : Fin 128) :
    k0_pay1 (F := Ideal) a f wl wr b (ix2 p q)
      = FloatOps.maximumf (F := Ideal)
          (((∑ k : Fin 128, a (ix2 p k) * wl (ix2 q k)) + b (ix1 q)) + ∑ k : Fin 128, f (ix2 p k) * wr (ix2 q k))
          (FloatOps.ofBits (F := Ideal) .f32 0x00000000#32) := by
  unfold k0_pay1
  show FloatOps.maximumf (F := Ideal) ((matmul dot_S2000x128_S128x128_S2000x128_1_1_0_0_n_n none _ _ _ (ix2 p q) + broadcastTo S2000x128 _ _ (ix2 p q)) + matmul dot_S2000x128_S128x128_S2000x128_1_1_0_0_n_n none _ _ _ (ix2 p q)) _ = _
  rw [rows_times_weights, rows_times_weights, bias_at]
  simp only [shapeCast_self]
  rfl

/-- Layer 2's body at entry (p, q): the dense expression. -/
theorem k1_pay1_at (a f : Vec Ideal S2000x128 .f32) (wl wr : Vec Ideal S128x128 .f32) (b : Vec Ideal S128 .f32)
    (p : Fin 2000) (q : Fin 128) :
    k1_pay1 (F := Ideal) a f wl wr b (ix2 p q)
      = ((∑ k : Fin 128, a (ix2 p k) * wl (ix2 q k)) + b (ix1 q)) + ∑ k : Fin 128, f (ix2 p k) * wr (ix2 q k) := by
  unfold k1_pay1
  show (matmul dot_S2000x128_S128x128_S2000x128_1_1_0_0_n_n none _ _ _ (ix2 p q) + broadcastTo S2000x128 _ _ (ix2 p q)) + matmul dot_S2000x128_S128x128_S2000x128_1_1_0_0_n_n none _ _ _ (ix2 p q) = _
  rw [rows_times_weights, rows_times_weights, bias_at]
  simp only [shapeCast_self]
  rfl

end Cert.KernelIdeal.Body

end
-- ==== Proof.Spec.lean ====
/-
  One GraphSAGE dense layer as a function of whole arrays, index by index, on the extended reals.

  For node `r` and output feature `q`:
    dense a f wl b wr (r, q) = (Σ_k a[r,k] · wl[q,k]  +  b[q])  +  Σ_k f[r,k] · wr[q,k]
  i.e. `a · wlᵀ + b + f · wrᵀ`: both weight matrices are contracted along their SECOND axis (their rows are
  output features).  `denseRelu` is the same followed by the maximum with the float zero word.
  The grouping of the two additions is the one both programs print; no law of the extended reals is used.
-/
import Idealize.ShloMosaic.PureOps.Ideal
import Idealize.ShloMosaic.Lib.ValueIdx

noncomputable section

namespace Cert.Sage

open Idealize.ShloMosaic Idealize.ShloMosaic.ValueIdx

/-- Node features / aggregated features: 100000 nodes × 128 features. -/
abbrev SN : Shape := ⟨2, ![100000, 128]⟩
/-- A weight matrix: 128 output features × 128 input features. -/
abbrev SW : Shape := ⟨2, ![128, 128]⟩
/-- A bias vector. -/
abbrev SB : Shape := ⟨1, ![128]⟩

/-- Row `r` of `a` against row `q` of `w`: the entry `(r, q)` of `a · wᵀ`. -/
def rowDot (a : FVec Ideal SN .f32) (w : FVec Ideal SW .f32) (r : Fin 100000) (q : Fin 128) : EReal :=
  ∑ k : Fin 128, a (ix2 r k) * w (ix2 q k)

/-- Entry `(r, q)` of `a · wlᵀ + b + f · wrᵀ`, grouped `(· + b) + ·`. -/
def denseAt (a f : FVec Ideal SN .f32) (wl : FVec Ideal SW .f32) (b : FVec Ideal SB .f32) (wr : FVec Ideal SW .f32)
    (r : Fin 100000) (q : Fin 128) : EReal :=
  (rowDot a wl r q + b (ix1 q)) + rowDot f wr r q

/-- The dense layer without activation, as a whole array. -/
def dense (a f : FVec Ideal SN .f32) (wl : FVec Ideal SW .f32) (b : FVec Ideal SB .f32) (wr : FVec Ideal SW .f32) :
    FVec Ideal SN .f32 :=
  fun i => denseAt a f wl b wr (i 0) (i 1)

/-- The dense layer followed by ReLU: the maximum with the float zero word, entry by entry. -/
def denseRelu (a f : FVec Ideal SN .f32) (wl : FVec Ideal SW .f32) (b : FVec Ideal SB .f32) (wr : FVec Ideal SW .f32) :
    FVec Ideal SN .f32 :=
  fun i => FloatOps.maximumf (F := Ideal) (denseAt a f wl b wr (i 0) (i 1)) (FloatOps.ofBits (F := Ideal) .f32 0x00000000#32)

end Cert.Sage

end
-- ==== Proof.Blocks0.lean ====
/-
  From one grid point's block to the whole array, for the dense layer of region 0 (layer 1, with its ReLU).

  The grid has 50 points; point `t` reads rows 2000·t … 2000·t + 1999 of the aggregated features and of the node
  features, the whole of both weight matrices and the whole bias, and writes back rows 2000·t … 2000·t + 1999 of the
  output.  Entry (p, q) of what it writes is the dense expression of Spec.lean at row 2000·t + p and column q, so what
  point `t` writes back IS block `t` of the whole-array function; the 50 blocks tile the 100000 rows (row `r` lies in the
  block of point r / 2000), hence the array ends at that function everywhere.  All of it holds for ANY contents `V`
  the region is entered with.
-/
import proofs.«107292_j21337397527225_1_alg».proof.Proof.Gen.KernelIdeal.Frame
import proofs.«107292_j21337397527225_1_alg».proof.Proof.Payload
import proofs.«107292_j21337397527225_1_alg».proof.Proof.Spec

set_option maxRecDepth 16384

noncomputable section

namespace Cert.KernelIdeal.Blocks0

open Cert.KernelIdeal Cert.KernelIdeal.Gen Cert.KernelIdeal.Body
open Idealize.ShloMosaic Idealize.ShloMosaic.TcCoe Idealize.ShloMosaic.ValueIdx Idealize.SL.Sem
open Idealize.ShloMosaic.Pipeline (Dat Cfg Window)

variable (V : (c : Dev nD) → (b : Ref sig .tc) → Buf (Elt Ideal) ((c : Thread nD τ).loc b))

theorem hz2 : (![0, 0] : Fin 2 → Nat) = fun _ => 0 := funext fun a => by fin_cases a <;> rfl
theorem hz1 : (![0] : Fin 1 → Nat) = fun _ => 0 := funext fun a => by fin_cases a <;> rfl

/-! ## Layer 1 (region 0) -/

/-- The printed index maps of region 0, decided over its 50 points: the two row-blocked inputs and the output move
    with the point along the rows, the weights and the bias stay at block 0. -/
theorem idx_facts0 : ∀ t : Fin cfg0.N,
    win0_0.index t (0 : Fin 2) = t.val ∧ win0_0.index t (1 : Fin 2) = 0
    ∧ win0_1.index t (0 : Fin 2) = t.val ∧ win0_1.index t (1 : Fin 2) = 0
    ∧ win0_2.index t (0 : Fin 2) = 0 ∧ win0_2.index t (1 : Fin 2) = 0
    ∧ win0_3.index t (0 : Fin 1) = 0
    ∧ win0_4.index t (0 : Fin 2) = 0 ∧ win0_4.index t (1 : Fin 2) = 0
    ∧ win0_5.index t (0 : Fin 2) = t.val ∧ win0_5.index t (1 : Fin 2) = 0 :=
  (by decide +kernel : ∀ t : Fin grid0.N, _)

/-- Row `p` of point `t`'s block is row `2000·t + p` of the array. -/
def row0 (t : Fin cfg0.N) (p : Fin 2000) : Fin 100000 :=
  ⟨t.val * 2000 + p.val, by have ht : t.val < 50 := lt_of_lt_of_eq t.isLt N_0; have := p.isLt; omega⟩

/-- The arrays region 0 reads, at the contents it is entered with, under their literal types. -/
abbrev aArr0 (c : Dev nD) : FVec Ideal Cert.Sage.SN .f32 := V c main_v22
abbrev fArr0 (c : Dev nD) : FVec Ideal Cert.Sage.SN .f32 := V c main_arg0
abbrev wlArr0 (c : Dev nD) : FVec Ideal Cert.Sage.SW .f32 := V c main_arg2
abbrev bArr0 (c : Dev nD) : FVec Ideal Cert.Sage.SB .f32 := V c main_arg3
abbrev wrArr0 (c : Dev nD) : FVec Ideal Cert.Sage.SW .f32 := V c main_arg4

/-- The blocks point `t` loads, under their literal types. -/
abbrev aBlk0 (c : Dev nD) (t : Fin cfg0.N) : Vec Ideal S2000x128 .f32 := iblk0 V c 0 t
abbrev fBlk0 (c : Dev nD) (t : Fin cfg0.N) : Vec Ideal S2000x128 .f32 := iblk0 V c 1 t
abbrev wlBlk0 (c : Dev nD) (t : Fin cfg0.N) : Vec Ideal S128x128 .f32 := iblk0 V c 2 t
abbrev bBlk0 (c : Dev nD) (t : Fin cfg0.N) : Vec Ideal S128 .f32 := iblk0 V c 3 t
abbrev wrBlk0 (c : Dev nD) (t : Fin cfg0.N) : Vec Ideal S128x128 .f32 := iblk0 V c 4 t

/-- Entry (p, k) of the aggregated-feature block of point `t` is entry (2000·t + p, k) of the array. -/
theorem aBlk0_at (c : Dev nD) (t : Fin cfg0.N) (p : Fin 2000) (k : Fin 128) :
    aBlk0 V c t (ix2 p k) = aArr0 V c (ix2 (row0 t p) k) := by
  obtain ⟨e00, e01, -⟩ := idx_facts0 t
  show V c main_v22 (((cfg0.win 0).blk t).view.emb (ix2 p k)) = V c main_v22 (ix2 (row0 t p) k)
  refine congrArg (V c main_v22) (funext fun a => Fin.ext ?_)
  match a with
  | ⟨0, _⟩ => show win0_0.index t (0 : Fin 2) * 2000 + 1 * p.val = t.val * 2000 + p.val; omega
  | ⟨1, _⟩ => show win0_0.index t (1 : Fin 2) * 128 + 1 * k.val = k.val; omega

/-- The same for the node-feature block. -/
theorem fBlk0_at (c : Dev nD) (t : Fin cfg0.N) (p : Fin 2000) (k : Fin 128) :
    fBlk0 V c t (ix2 p k) = fArr0 V c (ix2 (row0 t p) k) := by
  obtain ⟨-, -, e10, e11, -⟩ := idx_facts0 t
  show V c main_arg0 (((cfg0.win 1).blk t).view.emb (ix2 p k)) = V c main_arg0 (ix2 (row0 t p) k)
  refine congrArg (V c main_arg0) (funext fun a => Fin.ext ?_)
  match a with
  | ⟨0, _⟩ => show win0_1.index t (0 : Fin 2) * 2000 + 1 * p.val = t.val * 2000 + p.val; omega
  | ⟨1, _⟩ => show win0_1.index t (1 : Fin 2) * 128 + 1 * k.val = k.val; omega

/-- Every point loads the whole left weight matrix. -/
theorem wlBlk0_at (c : Dev nD) (t : Fin cfg0.N) (q k : Fin 128) :
    wlBlk0 V c t (ix2 q k) = wlArr0 V c (ix2 q k) := by
  obtain ⟨-, -, -, -, e20, e21, -⟩ := idx_facts0 t
  show V c main_arg2 (((cfg0.win 2).blk t).view.emb (ix2 q k)) = V c main_arg2 (ix2 q k)
  refine congrArg (V c main_arg2) (funext fun a => Fin.ext ?_)
  match a with
  | ⟨0, _⟩ => show win0_2.index t (0 : Fin 2) * 128 + 1 * q.val = q.val; omega
  | ⟨1, _⟩ => show win0_2.index t (1 : Fin 2) * 128 + 1 * k.val = k.val; omega

/-- Every point loads the whole bias. -/
theorem bBlk0_at (c : Dev nD) (t : Fin cfg0.N) (q : Fin 128) :
    bBlk0 V c t (ix1 q) = bArr0 V c (ix1 q) := by
  obtain ⟨-, -, -, -, -, -, e30, -⟩ := idx_facts0 t
  show V c main_arg3 (((cfg0.win 3).blk t).view.emb (ix1 q)) = V c main_arg3 (ix1 q)
  refine congrArg (V c main_arg3) (funext fun a => Fin.ext ?_)
  match a with
  | ⟨0, _⟩ => show win0_3.index t (0 : Fin 1) * 128 + 1 * q.val = q.val; omega

/-- Every point loads the whole right weight matrix. -/
theorem wrBlk0_at (c : Dev nD) (t : Fin cfg0.N) (q k : Fin 128) :
    wrBlk0 V c t (ix2 q k) = wrArr0 V c (ix2 q k) := by
  obtain ⟨-, -, -, -, -, -, -, e40, e41, -⟩ := idx_facts0 t
  show V c main_arg4 (((cfg0.win 4).blk t).view.emb (ix2 q k)) = V c main_arg4 (ix2 q k)
  refine congrArg (V c main_arg4) (funext fun a => Fin.ext ?_)
  match a with
  | ⟨0, _⟩ => show win0_4.index t (0 : Fin 2) * 128 + 1 * q.val = q.val; omega
  | ⟨1, _⟩ => show win0_4.index t (1 : Fin 2) * 128 + 1 * k.val = k.val; omega

/-- Entry (p, q) of the output block of point `t` sits at (2000·t + p, q) in the array. -/
theorem oEmb0 (t : Fin cfg0.N) (p : Fin 2000) (q : Fin 128) :
    ((cfg0.win 5).blk t).view.emb (ix2 p q) = (ix2 (row0 t p) q : Cert.Sage.SN.Idx) := by
  obtain ⟨-, -, -, -, -, -, -, -, -, e50, e51⟩ := idx_facts0 t
  refine funext fun a => Fin.ext ?_
  match a with
  | ⟨0, _⟩ => show win0_5.index t (0 : Fin 2) * 2000 + 1 * p.val = t.val * 2000 + p.val; omega
  | ⟨1, _⟩ => show win0_5.index t (1 : Fin 2) * 128 + 1 * q.val = q.val; omega

/-- WHAT POINT `t` WRITES BACK is block `t` of the dense layer with its ReLU of the arrays as the region finds them. -/
theorem flushed0 (c : Dev nD) (t : Fin cfg0.N) :
    (dat0 (F := Ideal) V c).flushed 5 t
      = ((cfg0.win 5).blk t).view.read (Elt Ideal)
          (Cert.Sage.denseRelu (aArr0 V c) (fArr0 V c) (wlArr0 V c) (bArr0 V c) (wrArr0 V c)) := by
  show (cfg0.win 5).cut (grid0.coords t) ((dat0 V c).after 5 t) = _
  rw [after0_5]
  unfold out0_5
  rw [View.canon_unit_zero hz2]
  simp only [View.ld_unit_zero (S := S2000x128) hz2, View.ld_unit_zero (S := S128x128) hz2, View.ld_unit_zero (S := S128) hz1]
  funext j
  obtain ⟨p, q, rfl⟩ : ∃ (p : Fin 2000) (q : Fin 128), j = ix2 p q := ⟨j 0, j 1, eq_ix2 j⟩
  show k0_pay1 (F := Ideal) (aBlk0 V c t) (fBlk0 V c t) (wlBlk0 V c t) (wrBlk0 V c t) (bBlk0 V c t) (ix2 p q)
    = Cert.Sage.denseRelu (aArr0 V c) (fArr0 V c) (wlArr0 V c) (bArr0 V c) (wrArr0 V c) (((cfg0.win 5).blk t).view.emb (ix2 p q))
  rw [oEmb0 t p q]
  refine (k0_pay1_at (aBlk0 V c t) (fBlk0 V c t) (wlBlk0 V c t) (wrBlk0 V c t) (bBlk0 V c t) p q).trans ?_
  have e1 : (∑ k : Fin 128, aBlk0 V c t (ix2 p k) * wlBlk0 V c t (ix2 q k))
      = Cert.Sage.rowDot (aArr0 V c) (wlArr0 V c) (row0 t p) q :=
    Finset.sum_congr rfl fun k _ => by rw [aBlk0_at, wlBlk0_at]
  have e2 : (∑ k : Fin 128, fBlk0 V c t (ix2 p k) * wrBlk0 V c t (ix2 q k))
      = Cert.Sage.rowDot (fArr0 V c) (wrArr0 V c) (row0 t p) q :=
    Finset.sum_congr rfl fun k _ => by rw [fBlk0_at, wrBlk0_at]
  rw [e1, e2, bBlk0_at]
  rfl

/-- An index of the output array is in point `t`'s block iff each coordinate is in the block's range on its axis. -/
theorem mem_blk0 (t : Fin cfg0.N) (i : Cert.Sage.SN.Idx) :
    i ∈ ((cfg0.win 5).blk t).view.set ↔ ∀ a : Fin 2, win0_5.index t a * S2000x128.size a ≤ (i a).val ∧ (i a).val < win0_5.index t a * S2000x128.size a + S2000x128.size a := by
  show i ∈ ((View.whole main_v23).slice (win0_5.rect t)).set ↔ _
  rw [View.set_slice_whole, Rect.mem_set_unit]
  exact Iff.rfl

/-- Every index of the output array lies in the block of the point its row falls to. -/
theorem cover0 (i : Cert.Sage.SN.Idx) :
    ∃ t : Fin cfg0.N, (cfg0.win 5).flush t = true ∧ i ∈ ((cfg0.win 5).blk t).view.set := by
  have hi0 : (i 0).val < 100000 := (i 0).isLt
  have hi1 : (i 1).val < 128 := (i 1).isLt
  let t : Fin cfg0.N := ⟨(i 0).val / 2000, lt_of_lt_of_eq (by omega : (i 0).val / 2000 < 50) N_0.symm⟩
  obtain ⟨-, -, -, -, -, -, -, -, -, e50, e51⟩ := idx_facts0 t
  have ht : t.val = (i 0).val / 2000 := rfl
  refine ⟨t, flush0_5 t, ?_⟩
  rw [mem_blk0]
  intro a
  match a with
  | ⟨0, _⟩ => show win0_5.index t (0 : Fin 2) * 2000 ≤ (i 0).val ∧ (i 0).val < win0_5.index t (0 : Fin 2) * 2000 + 2000; omega
  | ⟨1, _⟩ => show win0_5.index t (1 : Fin 2) * 128 ≤ (i 1).val ∧ (i 1).val < win0_5.index t (1 : Fin 2) * 128 + 128; omega

/-- THE ARRAY after region 0: the dense layer with its ReLU of the arrays the region is entered with, everywhere. -/
theorem arr0 (c : Dev nD) :
    (dat0 (F := Ideal) V c).arrAt 5 cfg0.N
      = Cert.Sage.denseRelu (aArr0 V c) (fArr0 V c) (wlArr0 V c) (bArr0 V c) (wrArr0 V c) :=
  (dat0 (F := Ideal) V c).arrAt_eq_of_cover 5 _ (fun t _ => flushed0 V c t) (cover0)

end Cert.KernelIdeal.Blocks0

end
-- ==== Proof.Blocks1.lean ====
/-
  From one grid point's block to the whole array, for the dense layer of region 1 (layer 2, no activation).

  The grid has 50 points; point `t` reads rows 2000·t … 2000·t + 1999 of the aggregated features and of the node
  features, the whole of both weight matrices and the whole bias, and writes back rows 2000·t … 2000·t + 1999 of the
  output.  Entry (p, q) of what it writes is the dense expression of Spec.lean at row 2000·t + p and column q, so what
  point `t` writes back IS block `t` of the whole-array function; the 50 blocks tile the 100000 rows (row `r` lies in the
  block of point r / 2000), hence the array ends at that function everywhere.  All of it holds for ANY contents `V`
  the region is entered with.
-/
import proofs.«107292_j21337397527225_1_alg».proof.Proof.Gen.KernelIdeal.Frame
import proofs.«107292_j21337397527225_1_alg».proof.Proof.Payload
import proofs.«107292_j21337397527225_1_alg».proof.Proof.Spec

set_option maxRecDepth 16384

noncomputable section

namespace Cert.KernelIdeal.Blocks1

open Cert.KernelIdeal Cert.KernelIdeal.Gen Cert.KernelIdeal.Body
open Idealize.ShloMosaic Idealize.ShloMosaic.TcCoe Idealize.ShloMosaic.ValueIdx Idealize.SL.Sem
open Idealize.ShloMosaic.Pipeline (Dat Cfg Window)

variable (V : (c : Dev nD) → (b : Ref sig .tc) → Buf (Elt Ideal) ((c : Thread nD τ).loc b))

theorem hz2 : (![0, 0] : Fin 2 → Nat) = fun _ => 0 := funext fun a => by fin_cases a <;> rfl
theorem hz1 : (![0] : Fin 1 → Nat) = fun _ => 0 := funext fun a => by fin_cases a <;> rfl

/-! ## Layer 2 (region 1) -/

/-- The printed index maps of region 1, decided over its 50 points: the two row-blocked inputs and the output move
    with the point along the rows, the weights and the bias stay at block 0. -/
theorem idx_facts1 : ∀ t : Fin cfg1.N,
    win1_0.index t (0 : Fin 2) = t.val ∧ win1_0.index t (1 : Fin 2) = 0
    ∧ win1_1.index t (0 : Fin 2) = t.val ∧ win1_1.index t (1 : Fin 2) = 0
    ∧ win1_2.index t (0 : Fin 2) = 0 ∧ win1_2.index t (1 : Fin 2) = 0
    ∧ win1_3.index t (0 : Fin 1) = 0
    ∧ win1_4.index t (0 : Fin 2) = 0 ∧ win1_4.index t (1 : Fin 2) = 0
    ∧ win1_5.index t (0 : Fin 2) = t.val ∧ win1_5.index t (1 : Fin 2) = 0 :=
  (by decide +kernel : ∀ t : Fin grid1.N, _)

/-- Row `p` of point `t`'s block is row `2000·t + p` of the array. -/
def row1 (t : Fin cfg1.N) (p : Fin 2000) : Fin 100000 :=
  ⟨t.val * 2000 + p.val, by have ht : t.val < 50 := lt_of_lt_of_eq t.isLt N_1; have := p.isLt; omega⟩

/-- The arrays region 1 reads, at the contents it is entered with, under their literal types. -/
abbrev aArr1 (c : Dev nD) : FVec Ideal Cert.Sage.SN .f32 := V c main_v42
abbrev fArr1 (c : Dev nD) : FVec Ideal Cert.Sage.SN .f32 := V c main_v23
abbrev wlArr1 (c : Dev nD) : FVec Ideal Cert.Sage.SW .f32 := V c main_arg5
abbrev bArr1 (c : Dev nD) : FVec Ideal Cert.Sage.SB .f32 := V c main_arg6
abbrev wrArr1 (c : Dev nD) : FVec Ideal Cert.Sage.SW .f32 := V c main_arg7

/-- The blocks point `t` loads, under their literal types. -/
abbrev aBlk1 (c : Dev nD) (t : Fin cfg1.N) : Vec Ideal S2000x128 .f32 := iblk1 V c 0 t
abbrev fBlk1 (c : Dev nD) (t : Fin cfg1.N) : Vec Ideal S2000x128 .f32 := iblk1 V c 1 t
abbrev wlBlk1 (c : Dev nD) (t : Fin cfg1.N) : Vec Ideal S128x128 .f32 := iblk1 V c 2 t
abbrev bBlk1 (c : Dev nD) (t : Fin cfg1.N) : Vec Ideal S128 .f32 := iblk1 V c 3 t
abbrev wrBlk1 (c : Dev nD) (t : Fin cfg1.N) : Vec Ideal S128x128 .f32 := iblk1 V c 4 t

/-- Entry (p, k) of the aggregated-feature block of point `t` is entry (2000·t + p, k) of the array. -/
theorem aBlk1_at (c : Dev nD) (t : Fin cfg1.N) (p : Fin 2000) (k : Fin 128) :
    aBlk1 V c t (ix2 p k) = aArr1 V c (ix2 (row1 t p) k) := by
  obtain ⟨e00, e01, -⟩ := idx_facts1 t
  show V c main_v42 (((cfg1.win 0).blk t).view.emb (ix2 p k)) = V c main_v42 (ix2 (row1 t p) k)
  refine congrArg (V c main_v42) (funext fun a => Fin.ext ?_)
  match a with
  | ⟨0, _⟩ => show win1_0.index t (0 : Fin 2) * 2000 + 1 * p.val = t.val * 2000 + p.val; omega
  | ⟨1, _⟩ => show win1_0.index t (1 : Fin 2) * 128 + 1 * k.val = k.val; omega

/-- The same for the node-feature block. -/
theorem fBlk1_at (c : Dev nD) (t : Fin cfg1.N) (p : Fin 2000) (k : Fin 128) :
    fBlk1 V c t (ix2 p k) = fArr1 V c (ix2 (row1 t p) k) := by
  obtain ⟨-, -, e10, e11, -⟩ := idx_facts1 t
  show V c main_v23 (((cfg1.win 1).blk t).view.emb (ix2 p k)) = V c main_v23 (ix2 (row1 t p) k)
  refine congrArg (V c main_v23) (funext fun a => Fin.ext ?_)
  match a with
  | ⟨0, _⟩ => show win1_1.index t (0 : Fin 2) * 2000 + 1 * p.val = t.val * 2000 + p.val; omega
  | ⟨1, _⟩ => show win1_1.index t (1 : Fin 2) * 128 + 1 * k.val = k.val; omega

/-- Every point loads the whole left weight matrix. -/
theorem wlBlk1_at (c : Dev nD) (t : Fin cfg1.N) (q k : Fin 128) :
    wlBlk1 V c t (ix2 q k) = wlArr1 V c (ix2 q k) := by
  obtain ⟨-, -, -, -, e20, e21, -⟩ := idx_facts1 t
  show V c main_arg5 (((cfg1.win 2).blk t).view.emb (ix2 q k)) = V c main_arg5 (ix2 q k)
  refine congrArg (V c main_arg5) (funext fun a => Fin.ext ?_)
  match a with
  | ⟨0, _⟩ => show win1_2.index t (0 : Fin 2) * 128 + 1 * q.val = q.val; omega
  | ⟨1, _⟩ => show win1_2.index t (1 : Fin 2) * 128 + 1 * k.val = k.val; omega

/-- Every point loads the whole bias. -/
theorem bBlk1_at (c : Dev nD) (t : Fin cfg1.N) (q : Fin 128) :
    bBlk1 V c t (ix1 q) = bArr1 V c (ix1 q) := by
  obtain ⟨-, -, -, -, -, -, e30, -⟩ := idx_facts1 t
  show V c main_arg6 (((cfg1.win 3).blk t).view.emb (ix1 q)) = V c main_arg6 (ix1 q)
  refine congrArg (V c main_arg6) (funext fun a => Fin.ext ?_)
  match a with
  | ⟨0, _⟩ => show win1_3.index t (0 : Fin 1) * 128 + 1 * q.val = q.val; omega

/-- Every point loads the whole right weight matrix. -/
theorem wrBlk1_at (c : Dev nD) (t : Fin cfg1.N) (q k : Fin 128) :
    wrBlk1 V c t (ix2 q k) = wrArr1 V c (ix2 q k) := by
  obtain ⟨-, -, -, -, -, -, -, e40, e41, -⟩ := idx_facts1 t
  show V c main_arg7 (((cfg1.win 4).blk t).view.emb (ix2 q k)) = V c main_arg7 (ix2 q k)
  refine congrArg (V c main_arg7) (funext fun a => Fin.ext ?_)
  match a with
  | ⟨0, _⟩ => show win1_4.index t (0 : Fin 2) * 128 + 1 * q.val = q.val; omega
  | ⟨1, _⟩ => show win1_4.index t (1 : Fin 2) * 128 + 1 * k.val = k.val; omega

/-- Entry (p, q) of the output block of point `t` sits at (2000·t + p, q) in the array. -/
theorem oEmb1 (t : Fin cfg1.N) (p : Fin 2000) (q : Fin 128) :
    ((cfg1.win 5).blk t).view.emb (ix2 p q) = (ix2 (row1 t p) q : Cert.Sage.SN.Idx) := by
  obtain ⟨-, -, -, -, -, -, -, -, -, e50, e51⟩ := idx_facts1 t
  refine funext fun a => Fin.ext ?_
  match a with
  | ⟨0, _⟩ => show win1_5.index t (0 : Fin 2) * 2000 + 1 * p.val = t.val * 2000 + p.val; omega
  | ⟨1, _⟩ => show win1_5.index t (1 : Fin 2) * 128 + 1 * q.val = q.val; omega

/-- WHAT POINT `t` WRITES BACK is block `t` of the dense layer of the arrays as the region finds them. -/
theorem flushed1 (c : Dev nD) (t : Fin cfg1.N) :
    (dat1 (F := Ideal) V c).flushed 5 t
      = ((cfg1.win 5).blk t).view.read (Elt Ideal)
          (Cert.Sage.dense (aArr1 V c) (fArr1 V c) (wlArr1 V c) (bArr1 V c) (wrArr1 V c)) := by
  show (cfg1.win 5).cut (grid1.coords t) ((dat1 V c).after 5 t) = _
  rw [after1_5]
  unfold out1_5
  rw [View.canon_unit_zero hz2]
  simp only [View.ld_unit_zero (S := S2000x128) hz2, View.ld_unit_zero (S := S128x128) hz2, View.ld_unit_zero (S := S128) hz1]
  funext j
  obtain ⟨p, q, rfl⟩ : ∃ (p : Fin 2000) (q : Fin 128), j = ix2 p q := ⟨j 0, j 1, eq_ix2 j⟩
  show k1_pay1 (F := Ideal) (aBlk1 V c t) (fBlk1 V c t) (wlBlk1 V c t) (wrBlk1 V c t) (bBlk1 V c t) (ix2 p q)
    = Cert.Sage.dense (aArr1 V c) (fArr1 V c) (wlArr1 V c) (bArr1 V c) (wrArr1 V c) (((cfg1.win 5).blk t).view.emb (ix2 p q))
  rw [oEmb1 t p q]
  refine (k1_pay1_at (aBlk1 V c t) (fBlk1 V c t) (wlBlk1 V c t) (wrBlk1 V c t) (bBlk1 V c t) p q).trans ?_
  have e1 : (∑ k : Fin 128, aBlk1 V c t (ix2 p k) * wlBlk1 V c t (ix2 q k))
      = Cert.Sage.rowDot (aArr1 V c) (wlArr1 V c) (row1 t p) q :=
    Finset.sum_congr rfl fun k _ => by rw [aBlk1_at, wlBlk1_at]
  have e2 : (∑ k : Fin 128, fBlk1 V c t (ix2 p k) * wrBlk1 V c t (ix2 q k))
      = Cert.Sage.rowDot (fArr1 V c) (wrArr1 V c) (row1 t p) q :=
    Finset.sum_congr rfl fun k _ => by rw [fBlk1_at, wrBlk1_at]
  rw [e1, e2, bBlk1_at]
  rfl

/-- An index of the output array is in point `t`'s block iff each coordinate is in the block's range on its axis. -/
theorem mem_blk1 (t : Fin cfg1.N) (i : Cert.Sage.SN.Idx) :
    i ∈ ((cfg1.win 5).blk t).view.set ↔ ∀ a : Fin 2, win1_5.index t a * S2000x128.size a ≤ (i a).val ∧ (i a).val < win1_5.index t a * S2000x128.size a + S2000x128.size a := by
  show i ∈ ((View.whole main_v43).slice (win1_5.rect t)).set ↔ _
  rw [View.set_slice_whole, Rect.mem_set_unit]
  exact Iff.rfl

/-- Every index of the output array lies in the block of the point its row falls to. -/
theorem cover1 (i : Cert.Sage.SN.Idx) :
    ∃ t : Fin cfg1.N, (cfg1.win 5).flush t = true ∧ i ∈ ((cfg1.win 5).blk t).view.set := by
  have hi0 : (i 0).val < 100000 := (i 0).isLt
  have hi1 : (i 1).val < 128 := (i 1).isLt
  let t : Fin cfg1.N := ⟨(i 0).val / 2000, lt_of_lt_of_eq (by omega : (i 0).val / 2000 < 50) N_1.symm⟩
  obtain ⟨-, -, -, -, -, -, -, -, -, e50, e51⟩ := idx_facts1 t
  have ht : t.val = (i 0).val / 2000 := rfl
  refine ⟨t, flush1_5 t, ?_⟩
  rw [mem_blk1]
  intro a
  match a with
  | ⟨0, _⟩ => show win1_5.index t (0 : Fin 2) * 2000 ≤ (i 0).val ∧ (i 0).val < win1_5.index t (0 : Fin 2) * 2000 + 2000; omega
  | ⟨1, _⟩ => show win1_5.index t (1 : Fin 2) * 128 ≤ (i 1).val ∧ (i 1).val < win1_5.index t (1 : Fin 2) * 128 + 128; omega

/-- THE ARRAY after region 1: the dense layer of the arrays the region is entered with, everywhere. -/
theorem arr1 (c : Dev nD) :
    (dat1 (F := Ideal) V c).arrAt 5 cfg1.N
      = Cert.Sage.dense (aArr1 V c) (fArr1 V c) (wlArr1 V c) (bArr1 V c) (wrArr1 V c) :=
  (dat1 (F := Ideal) V c).arrAt_eq_of_cover 5 _ (fun t _ => flushed1 V c t) (cover1)

end Cert.KernelIdeal.Blocks1

end
-- ==== Proof.Agg.lean ====
/-
  Mean aggregation over incoming edges, as ONE function of the node features and the edge list.

  `edges` is the [2, E] integer array (row 0 the sources, row 1 the destinations).  A source index is first wrapped
  (a negative index has the node count added), the source rows are gathered, scatter-added into their destination
  rows from the zero array, and each row is divided by the larger of 1 and the number of edges arriving at it (itself
  a scatter-add of ones).  Both programs apply exactly this chain of host operations, to the input features in layer 1
  and to the hidden features in layer 2, so the certificate never opens it: it only needs both sides to be THIS term.
-/
import proofs.«107292_j21337397527225_1_alg».proof.Proof.Gen.KernelIdeal

noncomputable section

namespace Cert.Sage

open Idealize.ShloMosaic Cert.KernelIdeal Cert.KernelIdeal.Facts₀ Cert.KernelIdeal.Facts

variable {F : FTy → Type} [FloatOps F]

/-- Row 0 of the edge list, flattened: the source node of every edge. -/
def srcOf (e : (⟨S2x1600000, .i32⟩ : BufTy).Contents (Elt F)) : (⟨S1600000, .i32⟩ : BufTy).Contents (Elt F) :=
  shapeCast _ (extractStridedSlice S1x1600000 ![0, 0] e slices_S2x1600000_S1x1600000_0_0) shapeCasts_S1x1600000_S1600000

/-- Row 1 of the edge list, flattened: the destination node of every edge. -/
def dstOf (e : (⟨S2x1600000, .i32⟩ : BufTy).Contents (Elt F)) : (⟨S1600000, .i32⟩ : BufTy).Contents (Elt F) :=
  shapeCast _ (extractStridedSlice S1x1600000 ![1, 0] e slices_S2x1600000_S1x1600000_1_0) shapeCasts_S1x1600000_S1600000

/-- The mean over incoming edges of the source rows of `x`, given the flattened sources and destinations. -/
def aggOf (x : (⟨S100000x128, .f32⟩ : BufTy).Contents (Elt F)) (src dst : (⟨S1600000, .i32⟩ : BufTy).Contents (Elt F)) :
    (⟨S100000x128, .f32⟩ : BufTy).Contents (Elt F) :=
  Host.divf
    (Host.scatterAdd scatter_S100000x128_S1600000x1_S1600000x128_1_0_0_1
      (broadcastInDim S100000x128 ![] bcast_S_S100000x128 (constant S_ .f32 0x00000000#32))
      (broadcastInDim S1600000x1 ![0] bcast_S1600000_S1600000x1_0 dst)
      (Host.gather gather_S100000x128_S1600000x1_S1600000x128_1_0_n_n_0_1_1128 x
        (broadcastInDim S1600000x1 ![0] bcast_S1600000_S1600000x1_0
          (select (cmpi .slt src (broadcastInDim S1600000 ![] bcast_S_S1600000 (constantI S_ 32 0#32)))
            (addi src (broadcastInDim S1600000 ![] bcast_S_S1600000 (constantI S_ 32 100000#32))) src))))
    (broadcastInDim S100000x128 ![0, 1] bcast_S100000x1_S100000x128_0_1
      (broadcastInDim S100000x1 ![0] bcast_S100000_S100000x1_0
        (maximumf
          (Host.scatterAdd scatter_S100000_S1600000x1_S1600000_n_0_0_1
            (broadcastInDim S100000 ![] bcast_S_S100000 (constant S_ .f32 0x00000000#32))
            (broadcastInDim S1600000x1 ![0] bcast_S1600000_S1600000x1_0 dst)
            (broadcastInDim S1600000 ![] bcast_S_S1600000 (constant S_ .f32 0x3F800000#32)))
          (broadcastInDim S100000 ![] bcast_S_S100000 (constant S_ .f32 0x3F800000#32)))))

/-- The mean aggregation of `x` along the edge list `e`. -/
def agg (x : (⟨S100000x128, .f32⟩ : BufTy).Contents (Elt F)) (e : (⟨S2x1600000, .i32⟩ : BufTy).Contents (Elt F)) :
    (⟨S100000x128, .f32⟩ : BufTy).Contents (Elt F) :=
  aggOf x (srcOf e) (dstOf e)

end Cert.Sage

end
-- ==== Proof.HostChain.lean ====
/-
  What the two stretches of host operations leave, from ANY buffer contents `W` they are entered with.

  The first stretch (before the first pallas_call) flattens the two rows of the edge list into the source and the
  destination vectors and leaves the mean aggregation of the input features; the second stretch (between the two
  pallas_calls) applies the same aggregation chain to whatever the first call left as hidden features, reusing the
  source and destination vectors of the first stretch.  Neither stretch writes an argument array or the hidden
  features.  The aggregation chain itself stays closed (Agg.lean).
-/
import proofs.«107292_j21337397527225_1_alg».proof.Proof.Gen.KernelIdeal.Launch
import proofs.«107292_j21337397527225_1_alg».proof.Proof.Agg
import Idealize.ShloMosaic.Lib.StableHlo.Run

set_option maxRecDepth 16384

noncomputable section

namespace Cert.KernelIdeal.Host

open Cert.KernelIdeal Cert.KernelIdeal.Gen
open Idealize.ShloMosaic Idealize.ShloMosaic.TcCoe Idealize.ShloMosaic.StableHlo Idealize.SL.Sem

variable {F : FTy → Type} [FloatOps F] (W : Valuation τ sig (Elt F))

/-! ## The first stretch -/

/-- The flattened source row of the edge list. -/
theorem host0_src : StableHlo.after hostOps0 W (Proc.devRef .tc main_v1) = Cert.Sage.srcOf (W (Proc.devRef .tc main_arg1)) := by
  after_results; rfl

/-- The flattened destination row of the edge list. -/
theorem host0_dst : StableHlo.after hostOps0 W (Proc.devRef .tc main_v3) = Cert.Sage.dstOf (W (Proc.devRef .tc main_arg1)) := by
  after_results; rfl

/-- The mean aggregation of the input features along the edge list. -/
theorem host0_agg : StableHlo.after hostOps0 W (Proc.devRef .tc main_v22)
    = Cert.Sage.agg (W (Proc.devRef .tc main_arg0)) (W (Proc.devRef .tc main_arg1)) := by
  after_results_simp
  unfold Cert.Sage.agg Cert.Sage.aggOf Cert.Sage.srcOf Cert.Sage.dstOf
  rfl

/-- The first stretch writes none of the buffers the certificate reads back through it. -/
theorem host0_arg0 : StableHlo.after hostOps0 W (Proc.devRef .tc main_arg0) = W (Proc.devRef .tc main_arg0) := by after_results
theorem host0_arg1 : StableHlo.after hostOps0 W (Proc.devRef .tc main_arg1) = W (Proc.devRef .tc main_arg1) := by after_results
theorem host0_arg2 : StableHlo.after hostOps0 W (Proc.devRef .tc main_arg2) = W (Proc.devRef .tc main_arg2) := by after_results
theorem host0_arg3 : StableHlo.after hostOps0 W (Proc.devRef .tc main_arg3) = W (Proc.devRef .tc main_arg3) := by after_results
theorem host0_arg4 : StableHlo.after hostOps0 W (Proc.devRef .tc main_arg4) = W (Proc.devRef .tc main_arg4) := by after_results
theorem host0_arg5 : StableHlo.after hostOps0 W (Proc.devRef .tc main_arg5) = W (Proc.devRef .tc main_arg5) := by after_results
theorem host0_arg6 : StableHlo.after hostOps0 W (Proc.devRef .tc main_arg6) = W (Proc.devRef .tc main_arg6) := by after_results
theorem host0_arg7 : StableHlo.after hostOps0 W (Proc.devRef .tc main_arg7) = W (Proc.devRef .tc main_arg7) := by after_results

/-! ## The second stretch -/

/-- The mean aggregation of the hidden features, along the sources and destinations the first stretch left. -/
theorem host1_agg : StableHlo.after hostOps1 W (Proc.devRef .tc main_v42)
    = Cert.Sage.aggOf (W (Proc.devRef .tc main_v23)) (W (Proc.devRef .tc main_v1)) (W (Proc.devRef .tc main_v3)) := by
  after_results_simp
  unfold Cert.Sage.aggOf
  rfl

/-- The second stretch writes neither the hidden features nor the second layer's parameters. -/
theorem host1_hidden : StableHlo.after hostOps1 W (Proc.devRef .tc main_v23) = W (Proc.devRef .tc main_v23) := by after_results
theorem host1_arg5 : StableHlo.after hostOps1 W (Proc.devRef .tc main_arg5) = W (Proc.devRef .tc main_arg5) := by after_results
theorem host1_arg6 : StableHlo.after hostOps1 W (Proc.devRef .tc main_arg6) = W (Proc.devRef .tc main_arg6) := by after_results
theorem host1_arg7 : StableHlo.after hostOps1 W (Proc.devRef .tc main_arg7) = W (Proc.devRef .tc main_arg7) := by after_results

end Cert.KernelIdeal.Host

end
-- ==== Proof.Result.lean ====
/-
  The two-layer GraphSAGE network as ONE function of its eight arguments, on the extended reals:

    hidden = relu( mean_agg(x) · W1_lᵀ + b1 + x · W1_rᵀ )
    result =       mean_agg(hidden) · W2_lᵀ + b2 + hidden · W2_rᵀ

  `mean_agg` is the shared, unopened host chain of Agg.lean; the dense layers are Spec.lean's index-by-index functions.
  Both programs are shown to end with their result array at exactly this term.
-/
import proofs.«107292_j21337397527225_1_alg».proof.Proof.Spec
import proofs.«107292_j21337397527225_1_alg».proof.Proof.Agg

noncomputable section

namespace Cert.Sage

open Idealize.ShloMosaic Cert.KernelIdeal

/-- The hidden features: layer 1 with its ReLU. -/
def hidden (x : (⟨S100000x128, .f32⟩ : BufTy).Contents (Elt Ideal)) (e : (⟨S2x1600000, .i32⟩ : BufTy).Contents (Elt Ideal))
    (w1l : (⟨S128x128, .f32⟩ : BufTy).Contents (Elt Ideal)) (b1 : (⟨S128, .f32⟩ : BufTy).Contents (Elt Ideal))
    (w1r : (⟨S128x128, .f32⟩ : BufTy).Contents (Elt Ideal)) : (⟨S100000x128, .f32⟩ : BufTy).Contents (Elt Ideal) :=
  denseRelu (agg (F := Ideal) x e) x w1l b1 w1r

/-- The network's output: layer 2, without activation, on the hidden features. -/
def result (x : (⟨S100000x128, .f32⟩ : BufTy).Contents (Elt Ideal)) (e : (⟨S2x1600000, .i32⟩ : BufTy).Contents (Elt Ideal))
    (w1l : (⟨S128x128, .f32⟩ : BufTy).Contents (Elt Ideal)) (b1 : (⟨S128, .f32⟩ : BufTy).Contents (Elt Ideal))
    (w1r : (⟨S128x128, .f32⟩ : BufTy).Contents (Elt Ideal))
    (w2l : (⟨S128x128, .f32⟩ : BufTy).Contents (Elt Ideal)) (b2 : (⟨S128, .f32⟩ : BufTy).Contents (Elt Ideal))
    (w2r : (⟨S128x128, .f32⟩ : BufTy).Contents (Elt Ideal)) : (⟨S100000x128, .f32⟩ : BufTy).Contents (Elt Ideal) :=
  dense (agg (F := Ideal) (hidden x e w1l b1 w1r) e) (hidden x e w1l b1 w1r) w2l b2 w2r

end Cert.Sage

end
-- ==== Proof.KernelValue.lean ====
/-
  The kernel program's result, as a function of the launch memory.

  Reading the run backwards: the result array is what the second pallas_call's write-backs leave, which is the dense
  layer (no activation) of the arrays that call is entered with; those are the mean aggregation of the hidden features
  (the second host stretch), the hidden features themselves and the second layer's parameters.  The hidden features
  are what the first pallas_call's write-backs leave: the dense layer with ReLU of the mean aggregation of the input
  features (the first host stretch), the input features and the first layer's parameters.  No host stretch and no
  call writes an argument array, the hidden features survive the second host stretch, and the flattened sources and
  destinations survive the first call.  Composed, the result is `Cert.Sage.result` of the eight arguments.
-/
import proofs.«107292_j21337397527225_1_alg».proof.Proof.KernelRun
import proofs.«107292_j21337397527225_1_alg».proof.Proof.Blocks0
import proofs.«107292_j21337397527225_1_alg».proof.Proof.Blocks1
import proofs.«107292_j21337397527225_1_alg».proof.Proof.HostChain
import proofs.«107292_j21337397527225_1_alg».proof.Proof.Result

set_option maxRecDepth 16384

noncomputable section

namespace Cert.KernelIdeal.KValue

open Cert.KernelIdeal Cert.KernelIdeal.Gen
open Idealize.ShloMosaic Idealize.ShloMosaic.TcCoe Idealize.SL.Sem

variable (m : (ℓ : Loc nD τ sig) → Buf (Elt Ideal) ℓ) (ρ : Dev nD → PrngReg)

/-! ## What survives the first pallas_call -/

/-- The flattened sources, as the second host stretch finds them. -/
theorem W2_src (c : Dev nD) : W2 m ρ c (Proc.devRef .tc main_v1) = Cert.Sage.srcOf (m ((c.tc : Thread nD τ).loc main_arg1)) :=
  (W2_of_ne m ρ c main_v1 (by decide)).trans (Host.host0_src (W0 m ρ c))
/-- The flattened destinations, as the second host stretch finds them. -/
theorem W2_dst (c : Dev nD) : W2 m ρ c (Proc.devRef .tc main_v3) = Cert.Sage.dstOf (m ((c.tc : Thread nD τ).loc main_arg1)) :=
  (W2_of_ne m ρ c main_v3 (by decide)).trans (Host.host0_dst (W0 m ρ c))
/-- The second layer's parameters, as the second host stretch finds them. -/
theorem W2_arg5 (c : Dev nD) : W2 m ρ c (Proc.devRef .tc main_arg5) = (m ((c.tc : Thread nD τ).loc main_arg5)) :=
  (W2_of_ne m ρ c main_arg5 (by decide)).trans (Host.host0_arg5 (W0 m ρ c))
theorem W2_arg6 (c : Dev nD) : W2 m ρ c (Proc.devRef .tc main_arg6) = (m ((c.tc : Thread nD τ).loc main_arg6)) :=
  (W2_of_ne m ρ c main_arg6 (by decide)).trans (Host.host0_arg6 (W0 m ρ c))
theorem W2_arg7 (c : Dev nD) : W2 m ρ c (Proc.devRef .tc main_arg7) = (m ((c.tc : Thread nD τ).loc main_arg7)) :=
  (W2_of_ne m ρ c main_arg7 (by decide)).trans (Host.host0_arg7 (W0 m ρ c))

/-! ## The hidden features -/

/-- What the first pallas_call leaves: layer 1 with its ReLU, of the launch memory. -/
theorem hidden_eq (c : Dev nD) :
    W2 m ρ c (Proc.devRef .tc main_v23)
      = Cert.Sage.hidden (m ((c.tc : Thread nD τ).loc main_arg0)) (m ((c.tc : Thread nD τ).loc main_arg1)) (m ((c.tc : Thread nD τ).loc main_arg2)) (m ((c.tc : Thread nD τ).loc main_arg3)) (m ((c.tc : Thread nD τ).loc main_arg4)) := by
  refine (W2_arr m ρ c 5).trans ?_
  refine (Blocks0.arr0 (V1 m ρ) c).trans ?_
  have ha : Blocks0.aArr0 (V1 m ρ) c = Cert.Sage.agg (F := Ideal) (m ((c.tc : Thread nD τ).loc main_arg0)) (m ((c.tc : Thread nD τ).loc main_arg1)) := Host.host0_agg (W0 m ρ c)
  have hf : Blocks0.fArr0 (V1 m ρ) c = (m ((c.tc : Thread nD τ).loc main_arg0)) := Host.host0_arg0 (W0 m ρ c)
  have hwl : Blocks0.wlArr0 (V1 m ρ) c = (m ((c.tc : Thread nD τ).loc main_arg2)) := Host.host0_arg2 (W0 m ρ c)
  have hb : Blocks0.bArr0 (V1 m ρ) c = (m ((c.tc : Thread nD τ).loc main_arg3)) := Host.host0_arg3 (W0 m ρ c)
  have hwr : Blocks0.wrArr0 (V1 m ρ) c = (m ((c.tc : Thread nD τ).loc main_arg4)) := Host.host0_arg4 (W0 m ρ c)
  rw [ha, hf, hwl, hb, hwr]
  rfl

/-! ## The result -/

/-- What the second pallas_call leaves: layer 2 on the hidden features, of the launch memory. -/
theorem result_eq (c : Dev nD) :
    W4 m ρ c (Proc.devRef .tc main_v43)
      = Cert.Sage.result (m ((c.tc : Thread nD τ).loc main_arg0)) (m ((c.tc : Thread nD τ).loc main_arg1)) (m ((c.tc : Thread nD τ).loc main_arg2)) (m ((c.tc : Thread nD τ).loc main_arg3)) (m ((c.tc : Thread nD τ).loc main_arg4)) (m ((c.tc : Thread nD τ).loc main_arg5)) (m ((c.tc : Thread nD τ).loc main_arg6)) (m ((c.tc : Thread nD τ).loc main_arg7)) := by
  refine (W4_arr m ρ c 5).trans ?_
  refine (Blocks1.arr1 (V3 m ρ) c).trans ?_
  have hh := hidden_eq m ρ c
  have ha : Blocks1.aArr1 (V3 m ρ) c
      = Cert.Sage.agg (F := Ideal) (Cert.Sage.hidden (m ((c.tc : Thread nD τ).loc main_arg0)) (m ((c.tc : Thread nD τ).loc main_arg1)) (m ((c.tc : Thread nD τ).loc main_arg2)) (m ((c.tc : Thread nD τ).loc main_arg3)) (m ((c.tc : Thread nD τ).loc main_arg4))) (m ((c.tc : Thread nD τ).loc main_arg1)) := by
    refine (Host.host1_agg (W2 m ρ c)).trans ?_
    rw [hh, W2_src, W2_dst]
    rfl
  have hf : Blocks1.fArr1 (V3 m ρ) c = Cert.Sage.hidden (m ((c.tc : Thread nD τ).loc main_arg0)) (m ((c.tc : Thread nD τ).loc main_arg1)) (m ((c.tc : Thread nD τ).loc main_arg2)) (m ((c.tc : Thread nD τ).loc main_arg3)) (m ((c.tc : Thread nD τ).loc main_arg4)) :=
    (Host.host1_hidden (W2 m ρ c)).trans hh
  have hwl : Blocks1.wlArr1 (V3 m ρ) c = (m ((c.tc : Thread nD τ).loc main_arg5)) := (Host.host1_arg5 (W2 m ρ c)).trans (W2_arg5 m ρ c)
  have hb : Blocks1.bArr1 (V3 m ρ) c = (m ((c.tc : Thread nD τ).loc main_arg6)) := (Host.host1_arg6 (W2 m ρ c)).trans (W2_arg6 m ρ c)
  have hwr : Blocks1.wrArr1 (V3 m ρ) c = (m ((c.tc : Thread nD τ).loc main_arg7)) := (Host.host1_arg7 (W2 m ρ c)).trans (W2_arg7 m ρ c)
  rw [ha, hf, hwl, hb, hwr]
  rfl

/-! ## The run, read -/

/-- Every weakly fair execution of the kernel program terminates, nothing faulting, with the result array at the
    network function of the launch memory and the arguments unchanged. -/
theorem run : θ_run defs (onTc (τ := τ) (main (F := Ideal))) ⟨m, fun _ => 0, ρ⟩ (fun r => ∀ c : Dev nD,
      r.2.mem ((c.tc : Thread nD τ).loc main_v43)
        = Cert.Sage.result (m ((c.tc : Thread nD τ).loc main_arg0)) (m ((c.tc : Thread nD τ).loc main_arg1)) (m ((c.tc : Thread nD τ).loc main_arg2)) (m ((c.tc : Thread nD τ).loc main_arg3)) (m ((c.tc : Thread nD τ).loc main_arg4)) (m ((c.tc : Thread nD τ).loc main_arg5)) (m ((c.tc : Thread nD τ).loc main_arg6)) (m ((c.tc : Thread nD τ).loc main_arg7))
      ∧ r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3)
      ∧ r.2.mem ((c.tc : Thread nD τ).loc main_arg4) = m ((c.tc : Thread nD τ).loc main_arg4)
      ∧ r.2.mem ((c.tc : Thread nD τ).loc main_arg5) = m ((c.tc : Thread nD τ).loc main_arg5)
      ∧ r.2.mem ((c.tc : Thread nD τ).loc main_arg6) = m ((c.tc : Thread nD τ).loc main_arg6)
      ∧ r.2.mem ((c.tc : Thread nD τ).loc main_arg7) = m ((c.tc : Thread nD τ).loc main_arg7)) :=
  (θ_run defs _ _).mono (fun r h c => ⟨(h c).1.trans (result_eq m ρ c), (h c).2⟩) (Named.run_named m ρ)

end Cert.KernelIdeal.KValue

end
-- ==== Proof.RefValue.lean ====
/-
  The reference program's result is the two-layer GraphSAGE network function of its eight arguments.

  The reference computes, over the extended reals,
    hidden = max( (mean_agg(x) · W1_lᵀ + b1) + x · W1_rᵀ , 0 )
    result =      (mean_agg(hidden) · W2_lᵀ + b2) + hidden · W2_rᵀ
  where each product with a transposed weight matrix is a contraction over the feature axis. Read at an output
  position `(r, q)`, each contraction is the sum over `k` of the left operand at `(r, k)` times the weight matrix at
  `(q, k)`, and the bias is read at `q`: exactly the entry the specification's `denseAt` writes down. The mean
  aggregation is never opened: on both occurrences it is the same chain of host operations as `Cert.Sage.agg`.
-/
import proofs.«107292_j21337397527225_1_alg».proof.Proof.Gen.ReferenceIdeal.Run
import proofs.«107292_j21337397527225_1_alg».proof.Proof.Gen.ReferenceIdeal.Read
import proofs.«107292_j21337397527225_1_alg».proof.Proof.Result
import Idealize.ShloMosaic.Lib.ValueIdx
import Idealize.ShloMosaic.PureOps.Ideal.Laws

noncomputable section

namespace Cert.ReferenceIdeal.RefValue

open Idealize.ShloMosaic Idealize.ShloMosaic.ValueIdx Cert.ReferenceIdeal

/-! ## The mean aggregation is the shared chain

Both occurrences of the aggregation in the reference apply, in the same order, the host operations that
`Cert.Sage.agg` names: wrap the sources, gather, scatter-add from zero, divide by the clamped in-degree.
The two sides name the same dimension records and shapes (equal field by field), so they are one term. -/

/-- Layer 1's aggregation of the input features is `agg` of them. -/
theorem agg1 (x0 : (⟨S100000x128, .f32⟩ : BufTy).Contents (Elt Ideal)) (x1 : (⟨S2x1600000, .i32⟩ : BufTy).Contents (Elt Ideal)) :
    Read.val_main_v22 (F := Ideal) x0 x1 = Cert.Sage.agg (F := Ideal) x0 x1 := by
  unfold Read.val_main_v22 Read.val_main_v13 Read.val_main_v10 Read.val_main_v9 Read.val_main_v8 Read.val_main_v5 Read.val_main_v7
    Read.val_main_v1 Read.val_main_v0 Read.val_main_v4 Read.val_main_c Read.val_main_v6 Read.val_main_c_0 Read.val_main_v11 Read.val_main_cst
    Read.val_main_v12 Read.val_main_v3 Read.val_main_v2 Read.val_main_v21 Read.val_main_v20 Read.val_main_v19 Read.val_main_v17
    Read.val_main_v15 Read.val_main_cst_2 Read.val_main_v16 Read.val_main_v14 Read.val_main_cst_1 Read.val_main_v18 Read.val_main_cst_3
    Cert.Sage.agg Cert.Sage.aggOf Cert.Sage.srcOf Cert.Sage.dstOf
  rfl

/-- Layer 2's aggregation is `agg` of whatever array it is applied to: the hidden features stay one variable. -/
theorem agg2 (x0 : (⟨S100000x128, .f32⟩ : BufTy).Contents (Elt Ideal)) (x1 : (⟨S2x1600000, .i32⟩ : BufTy).Contents (Elt Ideal)) (x2 : (⟨S128x128, .f32⟩ : BufTy).Contents (Elt Ideal)) (x3 : (⟨S128, .f32⟩ : BufTy).Contents (Elt Ideal)) (x4 : (⟨S128x128, .f32⟩ : BufTy).Contents (Elt Ideal)) :
    Read.val_main_v50 (F := Ideal) x0 x1 x2 x3 x4
      = Cert.Sage.agg (F := Ideal) (Read.val_main_v31 (F := Ideal) x0 x1 x2 x3 x4) x1 := by
  unfold Read.val_main_v50 Read.val_main_v41 Read.val_main_v38
  generalize Read.val_main_v31 (F := Ideal) x0 x1 x2 x3 x4 = h
  unfold Read.val_main_v37 Read.val_main_v36 Read.val_main_v33 Read.val_main_v35
    Read.val_main_v1 Read.val_main_v0 Read.val_main_v32 Read.val_main_c_4 Read.val_main_v34 Read.val_main_c_5 Read.val_main_v39 Read.val_main_cst_6
    Read.val_main_v40 Read.val_main_v3 Read.val_main_v2 Read.val_main_v49 Read.val_main_v48 Read.val_main_v47 Read.val_main_v45
    Read.val_main_v43 Read.val_main_cst_8 Read.val_main_v44 Read.val_main_v42 Read.val_main_cst_7 Read.val_main_v46 Read.val_main_cst_9
    Cert.Sage.agg Cert.Sage.aggOf Cert.Sage.srcOf Cert.Sage.dstOf
  rfl

/-! ## Indices by coordinates

At output position `i = (r, q)` and contraction position `k`, the left operand of each contraction is read at `(r, k)`;
the right operand is a transposed weight matrix read at `(k, q)`, i.e. the weight matrix itself at `(q, k)`;
the bias, broadcast first to a row and then down the rows, is read at `q`.
The program's four contractions compose the same index functions, so each equation is stated once. -/

/-- The left operand's index: row `r`, column `k`. -/
theorem lidx_ix (i : S100000x128.Idx) (k : Fin 128) :
    Read.lidx_main_v24 i k = ix2 (n0 := 100000) (n1 := 128) (i 0) k := by
  funext a; match a with | ⟨0, _⟩ => rfl | ⟨1, _⟩ => rfl

/-- The transposed weight's index `(k, q)` is the weight's `(q, k)`. -/
theorem ridx_ix (i : S100000x128.Idx) (k : Fin 128) :
    Read.idx_main_v23 (Read.ridx_main_v24 i k) = ix2 (n0 := 128) (n1 := 128) (i 1) k := by
  funext a; match a with | ⟨0, _⟩ => rfl | ⟨1, _⟩ => rfl

/-- The twice-broadcast bias is read at the output feature `q`. -/
theorem bidx_ix (i : S100000x128.Idx) :
    Read.idx_main_v25 (Read.idx_main_v26 i) = ix1 (n := 128) (i 1) := by
  funext a; match a with | ⟨0, _⟩ => rfl

/-! ## One dense layer at an index -/

/-- `(Σ_k a[r,k]·wl[q,k] + b[q]) + Σ_k f[r,k]·wr[q,k]`, with the operands read through any index functions that are
    the coordinate indices above, is the specification's entry `(r, q)`. The sums and the grouping are the same on
    both sides; no law of the extended reals is used. -/
theorem layer_at (a f : (⟨S100000x128, .f32⟩ : BufTy).Contents (Elt Ideal)) (wl : (⟨S128x128, .f32⟩ : BufTy).Contents (Elt Ideal)) (b : (⟨S128, .f32⟩ : BufTy).Contents (Elt Ideal)) (wr : (⟨S128x128, .f32⟩ : BufTy).Contents (Elt Ideal)) (i : S100000x128.Idx)
    (L1 L2 : Fin 128 → S100000x128.Idx) (R1 R2 : Fin 128 → S128x128.Idx) (B : S128.Idx)
    (hL1 : ∀ k, L1 k = ix2 (n0 := 100000) (n1 := 128) (i 0) k) (hR1 : ∀ k, R1 k = ix2 (n0 := 128) (n1 := 128) (i 1) k)
    (hB : B = ix1 (n := 128) (i 1))
    (hL2 : ∀ k, L2 k = ix2 (n0 := 100000) (n1 := 128) (i 0) k) (hR2 : ∀ k, R2 k = ix2 (n0 := 128) (n1 := 128) (i 1) k) :
    FloatOps.addf (F := Ideal) (φ := .f32)
        (FloatOps.addf (F := Ideal) (φ := .f32) (∑ k : Fin 128, a (L1 k) * wl (R1 k)) (b B))
        (∑ k : Fin 128, f (L2 k) * wr (R2 k))
      = Cert.Sage.denseAt a f wl b wr (i 0) (i 1) := by
  obtain rfl : L1 = fun k => ix2 (n0 := 100000) (n1 := 128) (i 0) k := funext hL1
  obtain rfl : R1 = fun k => ix2 (n0 := 128) (n1 := 128) (i 1) k := funext hR1
  obtain rfl : L2 = fun k => ix2 (n0 := 100000) (n1 := 128) (i 0) k := funext hL2
  obtain rfl : R2 = fun k => ix2 (n0 := 128) (n1 := 128) (i 1) k := funext hR2
  subst hB
  rfl

/-! ## The two layers -/

open Cert.ReferenceIdeal.Read in
/-- The reference's hidden features are `hidden`: layer 1 at every index, then the maximum with the same zero word. -/
theorem hidden_eq (x0 : (⟨S100000x128, .f32⟩ : BufTy).Contents (Elt Ideal)) (x1 : (⟨S2x1600000, .i32⟩ : BufTy).Contents (Elt Ideal)) (x2 : (⟨S128x128, .f32⟩ : BufTy).Contents (Elt Ideal)) (x3 : (⟨S128, .f32⟩ : BufTy).Contents (Elt Ideal)) (x4 : (⟨S128x128, .f32⟩ : BufTy).Contents (Elt Ideal)) :
    Read.val_main_v31 (F := Ideal) x0 x1 x2 x3 x4 = Cert.Sage.hidden x0 x1 x2 x3 x4 := by
  funext i
  rw [val_main_v31_apply, val_main_v30_apply, val_main_v27_apply, val_main_v24_apply, val_main_v26_apply, val_main_v25_apply,
    val_main_v29_apply, val_main_call0_v0_apply, val_main_call0_cst_apply]
  simp only [val_main_v23_apply, val_main_v28_apply]
  rw [agg1]
  unfold Cert.Sage.hidden Cert.Sage.denseRelu
  exact congrArg (fun t => FloatOps.maximumf (F := Ideal) t (FloatOps.ofBits (F := Ideal) .f32 0x00000000#32))
    (layer_at (Cert.Sage.agg (F := Ideal) x0 x1) x0 x2 x3 x4 i
      (fun k => lidx_main_v24 i k) (fun k => lidx_main_v29 i k)
      (fun k => idx_main_v23 (ridx_main_v24 i k)) (fun k => idx_main_v28 (ridx_main_v29 i k))
      (idx_main_v25 (idx_main_v26 i))
      (lidx_ix i) (ridx_ix i) (bidx_ix i) (lidx_ix i) (ridx_ix i))

open Cert.ReferenceIdeal.Read in
/-- The reference's last stage is `result`: layer 2 at every index, on the aggregated and the plain hidden features. -/
theorem result_eq (x0 : (⟨S100000x128, .f32⟩ : BufTy).Contents (Elt Ideal)) (x1 : (⟨S2x1600000, .i32⟩ : BufTy).Contents (Elt Ideal)) (x2 : (⟨S128x128, .f32⟩ : BufTy).Contents (Elt Ideal)) (x3 : (⟨S128, .f32⟩ : BufTy).Contents (Elt Ideal)) (x4 x5 : (⟨S128x128, .f32⟩ : BufTy).Contents (Elt Ideal)) (x6 : (⟨S128, .f32⟩ : BufTy).Contents (Elt Ideal)) (x7 : (⟨S128x128, .f32⟩ : BufTy).Contents (Elt Ideal)) :
    Read.val_main_v58 (F := Ideal) x0 x1 x2 x3 x4 x5 x6 x7 = Cert.Sage.result x0 x1 x2 x3 x4 x5 x6 x7 := by
  funext i
  rw [val_main_v58_apply, val_main_v55_apply, val_main_v52_apply, val_main_v54_apply, val_main_v53_apply, val_main_v57_apply]
  simp only [val_main_v51_apply, val_main_v56_apply]
  rw [agg2, hidden_eq]
  unfold Cert.Sage.result Cert.Sage.dense
  exact layer_at (Cert.Sage.agg (F := Ideal) (Cert.Sage.hidden x0 x1 x2 x3 x4) x1) (Cert.Sage.hidden x0 x1 x2 x3 x4) x5 x6 x7 i
      (fun k => lidx_main_v52 i k) (fun k => lidx_main_v57 i k)
      (fun k => idx_main_v51 (ridx_main_v52 i k)) (fun k => idx_main_v56 (ridx_main_v57 i k))
      (idx_main_v53 (idx_main_v54 i))
      (lidx_ix i) (ridx_ix i) (bidx_ix i) (lidx_ix i) (ridx_ix i)

/-- The reference's result, as the run states it, is the network function of the eight argument arrays. -/
theorem ref_result (m : (ℓ : Loc Cert.ReferenceIdeal.nD Cert.ReferenceIdeal.τ Cert.ReferenceIdeal.sig) → Buf (Elt Ideal) ℓ) (c : Dev Cert.ReferenceIdeal.nD) :
    Cert.ReferenceIdeal.Value.res_main_v58 (F := Ideal) m c
      = Cert.Sage.result (m ((c.tc : Thread Cert.ReferenceIdeal.nD Cert.ReferenceIdeal.τ).loc Cert.ReferenceIdeal.main_arg0))
          (m ((c.tc : Thread Cert.ReferenceIdeal.nD Cert.ReferenceIdeal.τ).loc Cert.ReferenceIdeal.main_arg1))
          (m ((c.tc : Thread Cert.ReferenceIdeal.nD Cert.ReferenceIdeal.τ).loc Cert.ReferenceIdeal.main_arg2))
          (m ((c.tc : Thread Cert.ReferenceIdeal.nD Cert.ReferenceIdeal.τ).loc Cert.ReferenceIdeal.main_arg3))
          (m ((c.tc : Thread Cert.ReferenceIdeal.nD Cert.ReferenceIdeal.τ).loc Cert.ReferenceIdeal.main_arg4))
          (m ((c.tc : Thread Cert.ReferenceIdeal.nD Cert.ReferenceIdeal.τ).loc Cert.ReferenceIdeal.main_arg5))
          (m ((c.tc : Thread Cert.ReferenceIdeal.nD Cert.ReferenceIdeal.τ).loc Cert.ReferenceIdeal.main_arg6))
          (m ((c.tc : Thread Cert.ReferenceIdeal.nD Cert.ReferenceIdeal.τ).loc Cert.ReferenceIdeal.main_arg7)) :=
  (Read.val_main_v58_eq (F := Ideal) m c).trans (result_eq _ _ _ _ _ _ _ _)

end Cert.ReferenceIdeal.RefValue

end
-- ==== Proof.lean ====
/-
  A two-layer GraphSAGE network: a Pallas kernel program against its jnp reference, equal over the extended reals.

  Both programs compute, from node features x [100000, 128], an edge list [2, 1600000] and two layers' parameters,
      hidden = relu( mean_agg(x) · W1_lᵀ + b1 + x · W1_rᵀ )
      result =       mean_agg(hidden) · W2_lᵀ + b2 + hidden · W2_rᵀ
  where mean_agg gathers each edge's source row, scatter-adds it into the edge's destination row and divides every row
  by max(in-degree, 1).  The kernel program keeps the gather / scatter-add / divide on the host, exactly as the
  reference has it, and runs each dense layer as a pallas_call over 50 blocks of 2000 rows, with the operands cast to
  bf16 (the identity on the extended reals) and the two products contracted along the weights' second axis; the
  reference transposes the weights and contracts along their first axis.  Entry (r, q) of a layer is on both sides
      (Σ_k a[r,k] · W_l[q,k] + b[q]) + Σ_k f[r,k] · W_r[q,k]
  with the same grouping of the two additions and the same zero word in the ReLU, so no law of the extended reals
  beyond reading each operation at an index is needed, and the precondition (finite inputs) is never opened.

  The kernel program's run ends with its result at `Cert.Sage.result` of the arguments (KernelValue.lean: the run of
  the two regions and two host stretches read backwards through Blocks0/Blocks1, Payload and HostChain), and so does
  the reference's (RefValue.lean); the mean aggregation is one shared, unopened function (Agg.lean).  The kernel's
  idealization rewrote nothing, so `preserves` has no conjunct.
-/
import proofs.«107292_j21337397527225_1_alg».proof.Defs
import proofs.«107292_j21337397527225_1_alg».proof.Proof.Gen.Kernel
import proofs.«107292_j21337397527225_1_alg».proof.Proof.Gen.Kernel.Frame
import proofs.«107292_j21337397527225_1_alg».proof.Proof.Gen.KernelIdeal
import proofs.«107292_j21337397527225_1_alg».proof.Proof.Gen.KernelIdeal.Frame
import proofs.«107292_j21337397527225_1_alg».proof.Proof.Gen.ReferenceIdeal
import proofs.«107292_j21337397527225_1_alg».proof.Proof.Gen.ReferenceIdeal.Run
import proofs.«107292_j21337397527225_1_alg».proof.Proof.Gen.Pre_finite_inputs
import proofs.«107292_j21337397527225_1_alg».proof.Proof.KernelValue
import proofs.«107292_j21337397527225_1_alg».proof.Proof.RefValue

noncomputable section

namespace Cert.Proof

open Idealize.ShloMosaic Idealize.ShloMosaic.TcCoe Idealize.SL.Sem

/-- The word-level kernel program runs and leaves its arguments as launched. -/
theorem frame_k : Cert.frame_Kernel := fun m ρ _ => Cert.Kernel.Gen.frame m ρ

/-- So does its reading over the extended reals. -/
theorem frame_ki : Cert.frame_KernelIdeal := fun m ρ _ => Cert.KernelIdeal.Gen.frame m ρ

/-- The reference is host operations only: its run, with the result dropped. -/
theorem frame_ri : Cert.frame_ReferenceIdeal := fun m ρ _ =>
  (θ_run Cert.ReferenceIdeal.defs _ _).mono (fun _ h c => (h c).2) (Cert.ReferenceIdeal.Value.run (F := Ideal) m ρ)

/-- From memories agreeing on the eight arguments both programs end with their result array at the same network
    function of those arguments. -/
theorem algebraic : Cert.algebraic_KernelIdeal_ReferenceIdeal := by
  intro m ρ m' ρ' _ hagree
  refine ⟨fun c => Cert.Sage.result (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2)) (m ((c.tc : Thread Cert.KernelIdeal.nD Cert.KernelIdeal.τ).loc Cert.KernelIdeal.main_arg3)) (m ((c.tc : Thread Cert.KernelIdeal.nD Cert.KernelIdeal.τ).loc Cert.KernelIdeal.main_arg4)) (m ((c.tc : Thread Cert.KernelIdeal.nD Cert.KernelIdeal.τ).loc Cert.KernelIdeal.main_arg5)) (m ((c.tc : Thread Cert.KernelIdeal.nD Cert.KernelIdeal.τ).loc Cert.KernelIdeal.main_arg6)) (m ((c.tc : Thread Cert.KernelIdeal.nD Cert.KernelIdeal.τ).loc Cert.KernelIdeal.main_arg7)),
    Cert.KernelIdeal.KValue.run m ρ, ?_⟩
  refine (θ_run Cert.ReferenceIdeal.defs _ _).mono (fun _ h c => ⟨(h c).1.trans ?_, (h c).2⟩)
    (Cert.ReferenceIdeal.Value.run (F := Ideal) m' ρ')
  obtain ⟨h0, h1, h2, h3, h4, h5, h6, h7⟩ := hagree c
  rw [Cert.ReferenceIdeal.RefValue.ref_result m' c, h0, h1, h2, h3, h4, h5, h6, h7]

theorem claim : Cert.Claim :=
  ⟨Cert.Kernel.Gen.facts, Cert.KernelIdeal.Gen.facts, Cert.ReferenceIdeal.Gen.facts, Cert.Pre_finite_inputs.Gen.facts,
    frame_k, frame_ki, frame_ri, trivial, algebraic⟩

end Cert.Proof

end
